-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v53)) (v4 : (c : Dev Cert.KernelIdeal.nD) → Buf (Elt Ideal) ((c.tc : Thread Cert.KernelIdeal.nD Cert.KernelIdeal.τ).loc Cert.KernelIdeal.main_v60)) (v5 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v53) = v3 c
          ∧ r.2.mem ((c.tc : Thread Cert.KernelIdeal.nD Cert.KernelIdeal.τ).loc Cert.KernelIdeal.main_v60) = v4 c
          ∧ r.2.mem ((c.tc : Thread Cert.KernelIdeal.nD Cert.KernelIdeal.τ).loc Cert.KernelIdeal.main_v67) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v89) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x64 : Shape := ⟨2, ![250000, 64]⟩
abbrev S4000000 : Shape := ⟨1, ![4000000]⟩
abbrev S4096 : Shape := ⟨1, ![4096]⟩
abbrev S_ : Shape := ⟨0, ![]⟩

class Facts : Prop where
  bcast_S_S250000x64 : S_.BroadcastsInDim S250000x64 (![] : Fin 0 → Fin S250000x64.rank)
  reducesTo_S250000x64_S_d0_1 : S250000x64.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S250000x64 .f32) (main_arg1 : IVec S4000000 32) (main_arg2 : IVec S4000000 32) (main_arg3 : FVec F S4000000 .f32) (main_arg4 : IVec S4096 32) (main_arg5 : IVec S4096 32) (main_arg6 : IVec S4096 32) : IVec S_ 1 :=
  let main_v0 : FVec F S250000x64 .f32 := Host.absf main_arg0
  let main_cst : FVec F S_ .f32 := constant S_ .f32 0x7F800000#32
  let main_v1 : FVec F S250000x64 .f32 := broadcastInDim S250000x64 ![] bcast_S_S250000x64 main_cst
  let main_v2 : IVec S250000x64 1 := cmpf .olt main_v0 main_v1
  let main_c : IVec S_ 1 := constantI S_ 1 1#1
  let main_v3 : IVec S_ 1 := (fun x v => Host.reduce IntOp.andi x v reducesTo_S250000x64_S_d0_1 h_S_) main_v2 main_c
  let main_v4 : FVec F S4000000 .f32 := Host.absf main_arg3
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_c_2 : IVec S_ 32 := constantI S_ 32 4294717296#32
  let main_v9 : IVec S4000000 32 := broadcastInDim S4000000 ![] bcast_S_S4000000 main_c_2
  let main_v10 : IVec S4000000 1 := cmpi .sge main_arg2 main_v9
  let main_c_3 : IVec S_ 32 := constantI S_ 32 250000#32
  let main_v11 : IVec S4000000 32 := broadcastInDim S4000000 ![] bcast_S_S4000000 main_c_3
  let main_v12 : IVec S4000000 1 := cmpi .slt main_arg2 main_v11
  let main_v13 : IVec S4000000 1 := andi main_v10 main_v12
  let main_c_4 : IVec S_ 1 := constantI S_ 1 1#1
  let main_v14 : IVec S_ 1 := (fun x v => Host.reduce IntOp.andi x v reducesTo_S4000000_S_d0 h_S_) main_v13 main_c_4
  let main_v15 : IVec S_ 1 := andi main_v8 main_v14
  main_v15
-- ==== Kernel.lean ====
abbrev S250000x64 : Shape := ⟨2, ![250000, 64]⟩
abbrev S4000000 : Shape := ⟨1, ![4000000]⟩
abbrev S4096 : Shape := ⟨1, ![4096]⟩
abbrev S_ : Shape := ⟨0, ![]⟩
abbrev S4005888 : Shape := ⟨1, ![4005888]⟩
abbrev S4005888x1 : Shape := ⟨2, ![4005888, 1]⟩
abbrev S1 : Shape := ⟨1, ![1]⟩
abbrev S1x1 : Shape := ⟨2, ![1, 1]⟩
abbrev S4005888x64 : Shape := ⟨2, ![4005888, 64]⟩
abbrev S8192x64 : Shape := ⟨2, ![8192, 64]⟩
abbrev S8192 : Shape := ⟨1, ![8192]⟩
abbrev S8192x1 : Shape := ⟨2, ![8192, 1]⟩
abbrev S5000x64 : Shape := ⟨2, ![5000, 64]⟩
abbrev S200000x64 : Shape := ⟨2, ![200000, 64]⟩
abbrev S50000x64 : Shape := ⟨2, ![50000, 64]⟩
abbrev S4096x1 : Shape := ⟨2, ![4096, 1]⟩
abbrev S4096x64 : Shape := ⟨2, ![4096, 64]⟩

abbrev nBuf : Space → Nat
  | .hbm => 162
  | .vmem => 40
  | .smem => 0
  | _ => 0

abbrev hbmTy0_0 (i : Nat) : BufTy := match i % 128 with
  | 0 => ⟨S250000x64, .f32⟩
  | 1 => ⟨S4000000, .i32⟩
  | 2 => ⟨S4000000, .i32⟩
  | 3 => ⟨S4000000, .f32⟩
  | 4 => ⟨S4096, .i32⟩
  | 5 => ⟨S4096, .i32⟩
  | 6 => ⟨S4096, .i32⟩
  | 7 => ⟨S_, .i32⟩
  | 8 => ⟨S_, .i32⟩
  | 9 => ⟨S4005888, .i32⟩
  | 10 => ⟨S_, .i32⟩
  | 11 => ⟨S_, .i32⟩
  | 12 => ⟨S4005888, .i32⟩
  | 13 => ⟨S_, .f32⟩
  | 14 => ⟨S_, .f32⟩
  | 15 => ⟨S4005888, .f32⟩
  | 16 => ⟨S_, .i32⟩
  | 17 => ⟨S4005888, .i32⟩
  | 18 => ⟨S4005888, .i1⟩
  | 19 => ⟨S_, .i32⟩
  | 20 => ⟨S4005888, .i32⟩
  | 21 => ⟨S4005888, .i32⟩
  | 22 => ⟨S4005888, .i32⟩
  | 23 => ⟨S4005888x1, .i32⟩
  | 24 => ⟨S1, .i32⟩
  | 25 => ⟨S_, .i32⟩
  | 26 => ⟨S4005888x1, .i32⟩
  | 27 => ⟨S4005888x1, .i1⟩
  | 28 => ⟨S1x1, .i32⟩
  | 29 => ⟨S4005888x1, .i32⟩
  | 30 => ⟨S4005888x1, .i1⟩
  | 31 => ⟨S4005888x1, .i1⟩
  | 32 => ⟨S_, .i1⟩
  | 33 => ⟨S4005888, .i1⟩
  | 34 => ⟨S4005888x64, .f32⟩
  | 35 => ⟨S4005888x64, .i1⟩
  | 36 => ⟨S_, .f32⟩
  | 37 => ⟨S4005888x64, .f32⟩
  | 38 => ⟨S4005888x64, .f32⟩
  | 39 => ⟨S4005888x64, .f32⟩
  | 40 => ⟨S_, .f32⟩
  | 41 => ⟨S250000x64, .f32⟩
  | 42 => ⟨S4005888x1, .i32⟩
  | 43 => ⟨S250000x64, .f32⟩
  | 44 => ⟨S250000x64, .f32⟩
  | 45 => ⟨S_, .i32⟩
  | 46 => ⟨S4005888, .i32⟩
  | 47 => ⟨S4005888, .i1⟩
  | 48 => ⟨S_, .i32⟩
  | 49 => ⟨S4005888, .i32⟩
  | 50 => ⟨S4005888, .i32⟩
  | 51 => ⟨S4005888, .i32⟩
  | 52 => ⟨S4005888x1, .i32⟩
  | 53 => ⟨S1, .i32⟩
  | 54 => ⟨S_, .i32⟩
  | 55 => ⟨S4005888x1, .i32⟩
  | 56 => ⟨S4005888x1, .i1⟩
  | 57 => ⟨S1x1, .i32⟩
  | 58 => ⟨S4005888x1, .i32⟩
  | 59 => ⟨S4005888x1, .i1⟩
  | 60 => ⟨S4005888x1, .i1⟩
  | 61 => ⟨S_, .i1⟩
  | 62 => ⟨S4005888, .i1⟩
  | 63 => ⟨S4005888x64, .f32⟩
  | 64 => ⟨S4005888x64, .i1⟩
  | 65 => ⟨S_, .f32⟩
  | 66 => ⟨S4005888x64, .f32⟩
  | 67 => ⟨S4005888x64, .f32⟩
  | 68 => ⟨S4005888x64, .f32⟩
  | 69 => ⟨S_, .f32⟩
  | 70 => ⟨S250000x64, .f32⟩
  | 71 => ⟨S4005888x1, .i32⟩
  | 72 => ⟨S250000x64, .f32⟩
  | 73 => ⟨S250000x64, .f32⟩
  | 74 => ⟨S_, .i32⟩
  | 75 => ⟨S4005888, .i32⟩
  | 76 => ⟨S4005888, .i1⟩
  | 77 => ⟨S_, .i32⟩
  | 78 => ⟨S4005888, .i32⟩
  | 79 => ⟨S4005888, .i32⟩
  | 80 => ⟨S4005888, .i32⟩
  | 81 => ⟨S4005888x1, .i32⟩
  | 82 => ⟨S1, .i32⟩
  | 83 => ⟨S_, .i32⟩
  | 84 => ⟨S4005888x1, .i32⟩
  | 85 => ⟨S4005888x1, .i1⟩
  | 86 => ⟨S1x1, .i32⟩
  | 87 => ⟨S4005888x1, .i32⟩
  | 88 => ⟨S4005888x1, .i1⟩
  | 89 => ⟨S4005888x1, .i1⟩
  | 90 => ⟨S_, .i1⟩
  | 91 => ⟨S4005888, .i1⟩
  | 92 => ⟨S4005888x64, .f32⟩
  | 93 => ⟨S4005888x64, .i1⟩
  | 94 => ⟨S_, .f32⟩
  | 95 => ⟨S4005888x64, .f32⟩
  | 96 => ⟨S4005888x64, .f32⟩
  | 97 => ⟨S4005888x64, .f32⟩
  | 98 => ⟨S_, .f32⟩
  | 99 => ⟨S250000x64, .f32⟩
  | 100 => ⟨S4005888x1, .i32⟩
  | 101 => ⟨S250000x64, .f32⟩
  | 102 => ⟨S250000x64, .f32⟩
  | 103 => ⟨S250000x64, .f32⟩
  | 104 => ⟨S200000x64, .f32⟩
  | 105 => ⟨S50000x64, .f32⟩
  | 106 => ⟨S200000x64, .f32⟩
  | 107 => ⟨S50000x64, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x64, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x64, .f32⟩
  | 126 => ⟨S_, .i32⟩
  | 127 => ⟨S4096, .i32⟩
  | _ => ⟨S250000x64, .f32⟩

abbrev hbmTy0_1 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096x64, .f32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S4096x64, .f32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S4096, .i32⟩
  | 23 => ⟨S4096x1, .i32⟩
  | 24 => ⟨S4096x64, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x64, .f32⟩
  | _ => ⟨S250000x64, .f32⟩

abbrev hbmTy (i : Nat) : BufTy := match i / 128 with
  | 0 => hbmTy0_0 i
  | 1 => hbmTy0_1 i
  | _ => ⟨S250000x64, .f32⟩

abbrev bufTy : (tb : Table) → Fin (tcTables nBuf tb) → BufTy
  | .hbm, ⟨i, _⟩ => hbmTy i
  | .local _ .vmem, ⟨0, _⟩ => ⟨S8192x64, .f32⟩
  | .local _ .vmem, ⟨1, _⟩ => ⟨S8192x64, .f32⟩
  | .local _ .vmem, ⟨2, _⟩ => ⟨S8192, .f32⟩
  | .local _ .vmem, ⟨3, _⟩ => ⟨S8192, .f32⟩
  | .local _ .vmem, ⟨4, _⟩ => ⟨S8192x64, .f32⟩
  | .local _ .vmem, ⟨5, _⟩ => ⟨S8192x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S8192x64, .f32⟩
  | .local _ .vmem, ⟨13, _⟩ => ⟨S8192x64, .f32⟩
  | .local _ .vmem, ⟨14, _⟩ => ⟨S8192, .f32⟩
  | .local _ .vmem, ⟨15, _⟩ => ⟨S8192, .f32⟩
  | .local _ .vmem, ⟨16, _⟩ => ⟨S8192x64, .f32⟩
  | .local _ .vmem, ⟨17, _⟩ => ⟨S8192x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S8192x64, .f32⟩
  | .local _ .vmem, ⟨25, _⟩ => ⟨S8192x64, .f32⟩
  | .local _ .vmem, ⟨26, _⟩ => ⟨S8192, .f32⟩
  | .local _ .vmem, ⟨27, _⟩ => ⟨S8192, .f32⟩
  | .local _ .vmem, ⟨28, _⟩ => ⟨S8192x64, .f32⟩
  | .local _ .vmem, ⟨29, _⟩ => ⟨S8192x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | _, _ => ⟨S250000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_cst : Ref sig .tc := ⟨.hbm, 13, rfl⟩
abbrev main_call2_v0 : Ref sig .tc := ⟨.hbm, 14, rfl⟩
abbrev main_v2 : Ref sig .tc := ⟨.hbm, 15, rfl⟩
abbrev main_call3_c : Ref sig .tc := ⟨.hbm, 16, rfl⟩
abbrev main_call3_v0 : Ref sig .tc := ⟨.hbm, 17, rfl⟩
abbrev main_call3_v1 : Ref sig .tc := ⟨.hbm, 18, rfl⟩
abbrev main_call3_c_0 : Ref sig .tc := ⟨.hbm, 19, rfl⟩
abbrev main_call3_v2 : Ref sig .tc := ⟨.hbm, 20, rfl⟩
abbrev main_call3_v3 : Ref sig .tc := ⟨.hbm, 21, rfl⟩
abbrev main_call3_v4 : Ref sig .tc := ⟨.hbm, 22, rfl⟩
abbrev main_call3_v5 : Ref sig .tc := ⟨.hbm, 23, rfl⟩
abbrev main_call3_c_1 : Ref sig .tc := ⟨.hbm, 24, rfl⟩
abbrev main_call3_c_2 : Ref sig .tc := ⟨.hbm, 25, rfl⟩
abbrev main_call3_v6 : Ref sig .tc := ⟨.hbm, 26, rfl⟩
abbrev main_call3_v7 : Ref sig .tc := ⟨.hbm, 27, rfl⟩
abbrev main_call3_v8 : Ref sig .tc := ⟨.hbm, 28, rfl⟩
abbrev main_call3_v9 : Ref sig .tc := ⟨.hbm, 29, rfl⟩
abbrev main_call3_v10 : Ref sig .tc := ⟨.hbm, 30, rfl⟩
abbrev main_call3_v11 : Ref sig .tc := ⟨.hbm, 31, rfl⟩
abbrev main_call3_c_3 : Ref sig .tc := ⟨.hbm, 32, rfl⟩
abbrev main_call3_v12 : Ref sig .tc := ⟨.hbm, 33, rfl⟩
abbrev main_call3_v13 : Ref sig .tc := ⟨.hbm, 34, rfl⟩
abbrev main_call3_v14 : Ref sig .tc := ⟨.hbm, 35, rfl⟩
abbrev main_call3_cst : Ref sig .tc := ⟨.hbm, 36, rfl⟩
abbrev main_call3_v15 : Ref sig .tc := ⟨.hbm, 37, rfl⟩
abbrev main_v3 : Ref sig .tc := ⟨.hbm, 38, rfl⟩
abbrev main_v4 : Ref sig .tc := ⟨.hbm, 39, rfl⟩
abbrev main_cst_1 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_call4_c : Ref sig .tc := ⟨.hbm, 45, rfl⟩
abbrev main_call4_v0 : Ref sig .tc := ⟨.hbm, 46, rfl⟩
abbrev main_call4_v1 : Ref sig .tc := ⟨.hbm, 47, rfl⟩
abbrev main_call4_c_0 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_c_1 : Ref sig .tc := ⟨.hbm, 53, rfl⟩
abbrev main_call4_c_2 : Ref sig .tc := ⟨.hbm, 54, rfl⟩
abbrev main_call4_v6 : Ref sig .tc := ⟨.hbm, 55, rfl⟩
abbrev main_call4_v7 : Ref sig .tc := ⟨.hbm, 56, rfl⟩
abbrev main_call4_v8 : Ref sig .tc := ⟨.hbm, 57, rfl⟩
abbrev main_call4_v9 : Ref sig .tc := ⟨.hbm, 58, rfl⟩
abbrev main_call4_v10 : Ref sig .tc := ⟨.hbm, 59, rfl⟩
abbrev main_call4_v11 : Ref sig .tc := ⟨.hbm, 60, rfl⟩
abbrev main_call4_c_3 : Ref sig .tc := ⟨.hbm, 61, rfl⟩
abbrev main_call4_v12 : Ref sig .tc := ⟨.hbm, 62, rfl⟩
abbrev main_call4_v13 : Ref sig .tc := ⟨.hbm, 63, rfl⟩
abbrev main_call4_v14 : Ref sig .tc := ⟨.hbm, 64, rfl⟩
abbrev main_call4_cst : Ref sig .tc := ⟨.hbm, 65, rfl⟩
abbrev main_call4_v15 : Ref sig .tc := ⟨.hbm, 66, rfl⟩
abbrev main_v9 : Ref sig .tc := ⟨.hbm, 67, rfl⟩
abbrev main_v10 : Ref sig .tc := ⟨.hbm, 68, rfl⟩
abbrev main_cst_2 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_call5_c : Ref sig .tc := ⟨.hbm, 74, rfl⟩
abbrev main_call5_v0 : Ref sig .tc := ⟨.hbm, 75, rfl⟩
abbrev main_call5_v1 : Ref sig .tc := ⟨.hbm, 76, rfl⟩
abbrev main_call5_c_0 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_call5_v5 : Ref sig .tc := ⟨.hbm, 81, rfl⟩
abbrev main_call5_c_1 : Ref sig .tc := ⟨.hbm, 82, rfl⟩
abbrev main_call5_c_2 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_v9 : Ref sig .tc := ⟨.hbm, 87, rfl⟩
abbrev main_call5_v10 : Ref sig .tc := ⟨.hbm, 88, rfl⟩
abbrev main_call5_v11 : Ref sig .tc := ⟨.hbm, 89, rfl⟩
abbrev main_call5_c_3 : Ref sig .tc := ⟨.hbm, 90, rfl⟩
abbrev main_call5_v12 : Ref sig .tc := ⟨.hbm, 91, rfl⟩
abbrev main_call5_v13 : Ref sig .tc := ⟨.hbm, 92, rfl⟩
abbrev main_call5_v14 : Ref sig .tc := ⟨.hbm, 93, rfl⟩
abbrev main_call5_cst : Ref sig .tc := ⟨.hbm, 94, rfl⟩
abbrev main_call5_v15 : Ref sig .tc := ⟨.hbm, 95, rfl⟩
abbrev main_v15 : Ref sig .tc := ⟨.hbm, 96, rfl⟩
abbrev main_v16 : Ref sig .tc := ⟨.hbm, 97, rfl⟩
abbrev main_cst_3 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_c_4 : Ref sig .tc := ⟨.hbm, 108, rfl⟩
abbrev main_v26 : Ref sig .tc := ⟨.hbm, 109, rfl⟩
abbrev main_v27 : Ref sig .tc := ⟨.hbm, 110, rfl⟩
abbrev main_c_5 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_c_6 : Ref sig .tc := ⟨.hbm, 117, rfl⟩
abbrev main_v33 : Ref sig .tc := ⟨.hbm, 118, rfl⟩
abbrev main_v34 : Ref sig .tc := ⟨.hbm, 119, rfl⟩
abbrev main_c_7 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_c_8 : Ref sig .tc := ⟨.hbm, 126, rfl⟩
abbrev main_v40 : Ref sig .tc := ⟨.hbm, 127, rfl⟩
abbrev main_v41 : Ref sig .tc := ⟨.hbm, 128, rfl⟩
abbrev main_c_9 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_c_10 : Ref sig .tc := ⟨.hbm, 135, rfl⟩
abbrev main_v47 : Ref sig .tc := ⟨.hbm, 136, rfl⟩
abbrev main_v48 : Ref sig .tc := ⟨.hbm, 137, rfl⟩
abbrev main_c_11 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_c_12 : Ref sig .tc := ⟨.hbm, 144, rfl⟩
abbrev main_v54 : Ref sig .tc := ⟨.hbm, 145, rfl⟩
abbrev main_v55 : Ref sig .tc := ⟨.hbm, 146, rfl⟩
abbrev main_c_13 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_c_14 : Ref sig .tc := ⟨.hbm, 153, rfl⟩
abbrev main_v61 : Ref sig .tc := ⟨.hbm, 154, rfl⟩
abbrev main_v62 : Ref sig .tc := ⟨.hbm, 155, rfl⟩
abbrev main_c_15 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![489], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  ![arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![489], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  pads_S4000000_S4005888_058880 : S4000000.Pads (![0] : Fin 1 → Nat) ![5888] ![0] S4005888
  h_S_ : 0 < S_.numel
  bcast_S_S4005888 : S_.BroadcastsInDim S4005888 (![] : Fin 0 → Fin S4005888.rank)
  bcast_S4005888_S4005888x1_0 : S4005888.BroadcastsInDim S4005888x1 (![0] : Fin 1 → Fin S4005888x1.rank)
  bcast_S_S4005888x1 : S_.BroadcastsInDim S4005888x1 (![] : Fin 0 → Fin S4005888x1.rank)
  bcast_S1_S1x1_1 : S1.BroadcastsInDim S1x1 (![1] : Fin 1 → Fin S1x1.rank)
  bcast_S1x1_S4005888x1_0_1 : S1x1.BroadcastsInDim S4005888x1 (![0, 1] : Fin 2 → Fin S4005888x1.rank)
  reducesTo_S4005888x1_S4005888_d1 : S4005888x1.ReducesTo [1] S4005888
  bcast_S4005888_S4005888x64_0 : S4005888.BroadcastsInDim S4005888x64 (![0] : Fin 1 → Fin S4005888x64.rank)
  bcast_S_S4005888x64 : S_.BroadcastsInDim S4005888x64 (![] : Fin 0 → Fin S4005888x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x64 : S8192x1.Broadcasts S8192x64
  bcast_S_S250000x64 : S_.BroadcastsInDim S250000x64 (![] : Fin 0 → Fin S250000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S250000x64_S200000x64_0_0 : S250000x64.Slices ![0, 0] S200000x64
  slices_S250000x64_S50000x64_200000_0 : S250000x64.Slices ![200000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S250000x64_S4005888x1_S4005888x64_1_0_n_n_0_1_164_wf : GatherDims.WF S250000x64 S4005888x1 S4005888x64 [1] [0] [] [0] [] 1 ![1, 64]
  scatter_S250000x64_S4005888x1_S4005888x64_1_0_0_1_wf : ScatterDims.WF S250000x64 S4005888x1 S4005888x64 [1] [0] [0] 1
  gather_S200000x64_S4096x1_S4096x64_1_0_n_n_0_1_164_wf : GatherDims.WF S200000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S4005888x64.size a
  hwx0_0 : ∀ i : grid0.Coords, EltTy.bits .f32 = 32 ∨ (Rect.block (s := S4005888x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4005888.size a
  hwx0_1 : ∀ i : grid0.Coords, EltTy.bits .f32 = 32 ∨ (Rect.block (s := S4005888) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S4005888x64.size a
  hwx0_2 : ∀ i : grid0.Coords, EltTy.bits .f32 = 32 ∨ (Rect.block (s := S4005888x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S250000x64.size a
  hwx1_0 : ∀ i : grid1.Coords, EltTy.bits .f32 = 32 ∨ (Rect.block (s := S250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S250000x64.size a
  hwx1_1 : ∀ i : grid1.Coords, EltTy.bits .f32 = 32 ∨ (Rect.block (s := S250000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S250000x64.size a
  hwx1_2 : ∀ i : grid1.Coords, EltTy.bits .f32 = 32 ∨ (Rect.block (s := S250000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S4005888x64.size a
  hwx2_0 : ∀ i : grid2.Coords, EltTy.bits .f32 = 32 ∨ (Rect.block (s := S4005888x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192.size a ≤ S4005888.size a
  hwx2_1 : ∀ i : grid2.Coords, EltTy.bits .f32 = 32 ∨ (Rect.block (s := S4005888) S8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S4005888x64.size a
  hwx2_2 : ∀ i : grid2.Coords, EltTy.bits .f32 = 32 ∨ (Rect.block (s := S4005888x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S250000x64.size a
  hwx3_0 : ∀ i : grid3.Coords, EltTy.bits .f32 = 32 ∨ (Rect.block (s := S250000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S250000x64.size a
  hwx3_1 : ∀ i : grid3.Coords, EltTy.bits .f32 = 32 ∨ (Rect.block (s := S250000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S250000x64.size a
  hwx3_2 : ∀ i : grid3.Coords, EltTy.bits .f32 = 32 ∨ (Rect.block (s := S250000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S4005888x64.size a
  hwx4_0 : ∀ i : grid4.Coords, EltTy.bits .f32 = 32 ∨ (Rect.block (s := S4005888x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192.size a ≤ S4005888.size a
  hwx4_1 : ∀ i : grid4.Coords, EltTy.bits .f32 = 32 ∨ (Rect.block (s := S4005888) S8192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S4005888x64.size a
  hwx4_2 : ∀ i : grid4.Coords, EltTy.bits .f32 = 32 ∨ (Rect.block (s := S4005888x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S250000x64.size a
  hwx5_0 : ∀ i : grid5.Coords, EltTy.bits .f32 = 32 ∨ (Rect.block (s := S250000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S250000x64.size a
  hwx5_1 : ∀ i : grid5.Coords, EltTy.bits .f32 = 32 ∨ (Rect.block (s := S250000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S250000x64.size a
  hwx5_2 : ∀ i : grid5.Coords, EltTy.bits .f32 = 32 ∨ (Rect.block (s := S250000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S250000x64.size a
  hwx6_0 : ∀ i : grid6.Coords, EltTy.bits .f32 = 32 ∨ (Rect.block (s := S250000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S250000x64.size a
  hwx6_1 : ∀ i : grid6.Coords, EltTy.bits .f32 = 32 ∨ (Rect.block (s := S250000x64) S5000x64.size (cc6_transform_1 i) (hinb6_1 i)).WholeWords (EltTy.packing .f32)

variable [Facts₀]

def gather_S250000x64_S4005888x1_S4005888x64_1_0_n_n_0_1_164 : GatherDims S250000x64 S4005888x1 S4005888x64 where
  offsetDims := [1]
  collapsedSliceDims := [0]
  operandBatchingDims := []
  startIndicesBatchingDims := []
  startIndexMap := [0]
  indexVectorDim := 1
  sliceSizes := ![1, 64]
  wf := gather_S250000x64_S4005888x1_S4005888x64_1_0_n_n_0_1_164_wf
def scatter_S250000x64_S4005888x1_S4005888x64_1_0_0_1 : ScatterDims S250000x64 S4005888x1 S4005888x64 where
  updateWindowDims := [1]
  insertedWindowDims := [0]
  scatterDimsToOperandDims := [0]
  indexVectorDim := 1
  wf := scatter_S250000x64_S4005888x1_S4005888x64_1_0_0_1_wf
def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpec (Memref.whole main_v3) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v15) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v14) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v20) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v21) S5000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S250000x64 : Shape := ⟨2, ![250000, 64]⟩
abbrev S4000000 : Shape := ⟨1, ![4000000]⟩
abbrev S4096 : Shape := ⟨1, ![4096]⟩
abbrev S4000000x1 : Shape := ⟨2, ![4000000, 1]⟩
abbrev S_ : Shape := ⟨0, ![]⟩
abbrev S4000000x64 : Shape := ⟨2, ![4000000, 64]⟩
abbrev S200000x64 : Shape := ⟨2, ![200000, 64]⟩
abbrev S50000x64 : Shape := ⟨2, ![50000, 64]⟩
abbrev S4096x1 : Shape := ⟨2, ![4096, 1]⟩
abbrev S4096x64 : Shape := ⟨2, ![4096, 64]⟩

abbrev nBuf : Space → Nat
  | .hbm => 119
  | .vmem => 0
  | .smem => 0
  | _ => 0

abbrev bufTy : (tb : Table) → Fin (tcTables nBuf tb) → BufTy
  | .hbm, ⟨0, _⟩ => ⟨S250000x64, .f32⟩
  | .hbm, ⟨1, _⟩ => ⟨S4000000, .i32⟩
  | .hbm, ⟨2, _⟩ => ⟨S4000000, .i32⟩
  | .hbm, ⟨3, _⟩ => ⟨S4000000, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4000000x1, .f32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x64, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S250000x64, .f32⟩
  | .hbm, ⟨21, _⟩ => ⟨S4000000x1, .i32⟩
  | .hbm, ⟨22, _⟩ => ⟨S250000x64, .f32⟩
  | .hbm, ⟨23, _⟩ => ⟨S250000x64, .f32⟩
  | .hbm, ⟨24, _⟩ => ⟨S4000000x1, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S4000000x64, .f32⟩
  | .hbm, ⟨35, _⟩ => ⟨S4000000x64, .f32⟩
  | .hbm, ⟨36, _⟩ => ⟨S_, .f32⟩
  | .hbm, ⟨37, _⟩ => ⟨S250000x64, .f32⟩
  | .hbm, ⟨38, _⟩ => ⟨S4000000x1, .i32⟩
  | .hbm, ⟨39, _⟩ => ⟨S250000x64, .f32⟩
  | .hbm, ⟨40, _⟩ => ⟨S250000x64, .f32⟩
  | .hbm, ⟨41, _⟩ => ⟨S4000000x1, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S4000000x64, .f32⟩
  | .hbm, ⟨52, _⟩ => ⟨S4000000x64, .f32⟩
  | .hbm, ⟨53, _⟩ => ⟨S_, .f32⟩
  | .hbm, ⟨54, _⟩ => ⟨S250000x64, .f32⟩
  | .hbm, ⟨55, _⟩ => ⟨S4000000x1, .i32⟩
  | .hbm, ⟨56, _⟩ => ⟨S250000x64, .f32⟩
  | .hbm, ⟨57, _⟩ => ⟨S250000x64, .f32⟩
  | .hbm, ⟨58, _⟩ => ⟨S_, .f32⟩
  | .hbm, ⟨59, _⟩ => ⟨S250000x64, .f32⟩
  | .hbm, ⟨60, _⟩ => ⟨S250000x64, .f32⟩
  | .hbm, ⟨61, _⟩ => ⟨S200000x64, .f32⟩
  | .hbm, ⟨62, _⟩ => ⟨S50000x64, .f32⟩
  | .hbm, ⟨63, _⟩ => ⟨S200000x64, .f32⟩
  | .hbm, ⟨64, _⟩ => ⟨S50000x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | .hbm, ⟨92, _⟩ => ⟨S_, .i32⟩
  | .hbm, ⟨93, _⟩ => ⟨S4096, .i32⟩
  | .hbm, ⟨94, _⟩ => ⟨S4096, .i1⟩
  | .hbm, ⟨95, _⟩ => ⟨S_, .i32⟩
  | .hbm, ⟨96, _⟩ => ⟨S4096, .i32⟩
  | .hbm, ⟨97, _⟩ => ⟨S4096, .i32⟩
  | .hbm, ⟨98, _⟩ => ⟨S4096, .i32⟩
  | .hbm, ⟨99, _⟩ => ⟨S4096x1, .i32⟩
  | .hbm, ⟨100, _⟩ => ⟨S4096x64, .f32⟩
  | .hbm, ⟨101, _⟩ => ⟨S_, .i32⟩
  | .hbm, ⟨102, _⟩ => ⟨S4096, .i32⟩
  | .hbm, ⟨103, _⟩ => ⟨S4096, .i1⟩
  | .hbm, ⟨104, _⟩ => ⟨S_, .i32⟩
  | .hbm, ⟨105, _⟩ => ⟨S4096, .i32⟩
  | .hbm, ⟨106, _⟩ => ⟨S4096, .i32⟩
  | .hbm, ⟨107, _⟩ => ⟨S4096, .i32⟩
  | .hbm, ⟨108, _⟩ => ⟨S4096x1, .i32⟩
  | .hbm, ⟨109, _⟩ => ⟨S4096x64, .f32⟩
  | .hbm, ⟨110, _⟩ => ⟨S_, .i32⟩
  | .hbm, ⟨111, _⟩ => ⟨S4096, .i32⟩
  | .hbm, ⟨112, _⟩ => ⟨S4096, .i1⟩
  | .hbm, ⟨113, _⟩ => ⟨S_, .i32⟩
  | .hbm, ⟨114, _⟩ => ⟨S4096, .i32⟩
  | .hbm, ⟨115, _⟩ => ⟨S4096, .i32⟩
  | .hbm, ⟨116, _⟩ => ⟨S4096, .i32⟩
  | .hbm, ⟨117, _⟩ => ⟨S4096x1, .i32⟩
  | .hbm, ⟨118, _⟩ => ⟨S4096x64, .f32⟩
  | _, _ => ⟨S250000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_12 : Ref sig .tc := ⟨.hbm, 83, rfl⟩
abbrev main_v62 : Ref sig .tc := ⟨.hbm, 84, rfl⟩
abbrev main_v63 : Ref sig .tc := ⟨.hbm, 85, rfl⟩
abbrev main_c_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_c_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_c_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_18 : Ref sig .tc := ⟨.hbm, 110, rfl⟩
abbrev main_v83 : Ref sig .tc := ⟨.hbm, 111, rfl⟩
abbrev main_v84 : Ref sig .tc := ⟨.hbm, 112, rfl⟩
abbrev main_c_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]

class Facts₀ : Prop where
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S250000x64 : S_.BroadcastsInDim S250000x64 (![] : Fin 0 → Fin S250000x64.rank)
  slices_S250000x64_S200000x64_0_0 : S250000x64.Slices ![0, 0] S200000x64
  slices_S250000x64_S50000x64_200000_0 : S250000x64.Slices ![200000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  gather_S200000x64_S4096x1_S4096x64_1_0_n_n_0_1_164_wf : GatherDims.WF S200000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def gather_S200000x64_S4096x1_S4096x64_1_0_n_n_0_1_164 : GatherDims S200000x64 S4096x1 S4096x64 where
  offsetDims := [1]
  collapsedSliceDims := [0]
  operandBatchingDims := []
  startIndicesBatchingDims := []
  startIndexMap := [0]
  indexVectorDim := 1
  sliceSizes := ![1, 64]
  wf := gather_S200000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.KSpec.lean ====
/-
  The kernel program's host-side stages and its three kinds of device regions, as pure functions of arrays.

  Sizes: N = 250000 table rows of D = 64 columns; E = 4000000 edges, padded to E' = 4005888 = 489 · 8192.
  * `padI`, `padF`: an edge vector extended by 5888 trailing entries, all 0 (words) or all +0.0 (floats).
  * `normIdx`: a position word w read the NumPy way: w + N when w is negative, else w.
  * `takeK x idx`: row e is row `normIdx idx e` of x when that position lies in [0, N − 1]; otherwise every entry
    of the row is the not-a-number pattern.
  * `scatK rows upd`: the table whose row r is the sum of the rows e of upd with rows e = r (signed; a position outside
    the table drops its row).
  * `weightAll g v`: row e of g scaled by v e — what the edge-weighting region leaves in its output array.
  * `addAll a b`: the entrywise sum — what an accumulating region leaves.
  * `scaleAll a`: every entry times the constant the scaling region carries.
-/
import proofs.«426908_j20014547599450_2_alg».proof.KernelIdeal
import Idealize.ShloMosaic.Lib.ValueIdx

noncomputable section

namespace Cert.KernelIdeal.Spec

open Idealize.ShloMosaic Idealize.ShloMosaic.ValueIdx Cert.KernelIdeal Cert.KernelIdeal.Facts₀ Cert.KernelIdeal.Facts

variable {F : FTy → Type} [FloatOps F] [Cert.KernelIdeal.Facts]

/-- An edge vector of words extended to the padded length by zeros. -/
def padI (x : IVec S4000000 32) : IVec S4005888 32 :=
  pad S4005888 ![0] ![5888] ![0] x (id (constantI S_ 32 0#32)) pads_S4000000_S4005888_058880 h_S_

/-- An edge vector of floats extended to the padded length by +0.0. -/
def padF (x : FVec F S4000000 .f32) : FVec F S4005888 .f32 :=
  pad S4005888 ![0] ![5888] ![0] x (id (constant S_ .f32 0x00000000#32)) pads_S4000000_S4005888_058880 h_S_

/-- A position word read the NumPy way: shifted up by the table's length when negative. -/
def normIdx (idx : IVec S4005888 32) : IVec S4005888 32 :=
  select (cmpi .slt idx (broadcastInDim S4005888 ![] bcast_S_S4005888 (constantI S_ 32 0#32)))
    (addi idx (broadcastInDim S4005888 ![] bcast_S_S4005888 (constantI S_ 32 250000#32))) idx

/-- The normalised positions as a one-column array. -/
def idxCol (idx : IVec S4005888 32) : IVec S4005888x1 32 :=
  broadcastInDim S4005888x1 ![0] bcast_S4005888_S4005888x1_0 (normIdx idx)

/-- Per edge: does the normalised position lie inside the table, 0 ≤ p ≤ N − 1? -/
def inRange (i5 : IVec S4005888x1 32) : IVec S4005888 1 :=
  Host.reduce IntOp.andi
    (andi (cmpi .sge i5 (broadcastInDim S4005888x1 ![] bcast_S_S4005888x1 (constantI S_ 32 0#32)))
      (cmpi .sle i5 (broadcastInDim S4005888x1 ![0, 1] bcast_S1x1_S4005888x1_0_1
        (broadcastInDim S1x1 ![1] bcast_S1_S1x1_1 (constantI S1 32 249999#32)))))
    (constantI S_ 1 1#1) reducesTo_S4005888x1_S4005888_d1 h_S_

/-- Rows of the table at the edges' positions, a row of not-a-number where the position is outside the table. -/
def takeK (x : FVec F S250000x64 .f32) (idx : IVec S4005888 32) : FVec F S4005888x64 .f32 :=
  select (broadcastInDim S4005888x64 ![0] bcast_S4005888_S4005888x64_0 (inRange (idxCol idx)))
    (Host.gather gather_S250000x64_S4005888x1_S4005888x64_1_0_n_n_0_1_164 x (idxCol idx))
    (broadcastInDim S4005888x64 ![] bcast_S_S4005888x64 (constant S_ .f32 0x7FC00000#32))

/-- The segment sum: edge rows added into a zero table at the edges' row positions. -/
def scatK (rows : IVec S4005888 32) (upd : FVec F S4005888x64 .f32) : FVec F S250000x64 .f32 :=
  Host.scatterAdd scatter_S250000x64_S4005888x1_S4005888x64_1_0_0_1
    (broadcastInDim S250000x64 ![] bcast_S_S250000x64 (constant S_ .f32 0x00000000#32))
    (broadcastInDim S4005888x1 ![0] bcast_S4005888_S4005888x1_0 rows) upd

/-- What the edge-weighting region leaves: each gathered row times its edge's weight. -/
def weightAll (g : S4005888x64.Idx → Elt F .f32) (v : S4005888.Idx → Elt F .f32) : S4005888x64.Idx → Elt F .f32 :=
  fun i => FloatOps.mulf (g i) (v (ix1 (⟨(i 0).val, (i 0).isLt⟩ : Fin 4005888)))

/-- What an accumulating region leaves: the entrywise sum. -/
def addAll (a b : S250000x64.Idx → Elt F .f32) : S250000x64.Idx → Elt F .f32 :=
  fun i => FloatOps.addf (a i) (b i)

/-- What the scaling region leaves: every entry times the region's constant one quarter. -/
def scaleAll (a : S250000x64.Idx → Elt F .f32) : S250000x64.Idx → Elt F .f32 :=
  fun i => FloatOps.mulf (a i) (Scalar.ofBits .f32 0x3E800000#32)

end Cert.KernelIdeal.Spec

end
-- ==== Proof.KChain.lean ====
/-
  The kernel program's whole computation as pure functions of its argument arrays, built from the stages of the
  stage module.
  * `layerK rows cols vals x`: one propagation step — pad the three edge lists, read the neighbour rows of x through the
    range guard, weight them, and sum the weighted rows into each edge's row position.
  * `meanK`: the table plus its first three propagation steps, times one quarter.
  * `tailUK`, `tailIK`: the batch rows picked out of the first 200000 rows (users) and of the last 50000 rows (items).
-/
import proofs.«426908_j20014547599450_2_alg».proof.Proof.KSpec

noncomputable section

namespace Cert.KernelIdeal.Spec

open Idealize.ShloMosaic Idealize.ShloMosaic.ValueIdx Cert.KernelIdeal Cert.KernelIdeal.Facts₀ Cert.KernelIdeal.Facts

variable {F : FTy → Type} [FloatOps F] [Cert.KernelIdeal.Facts]

/-- One propagation step over the padded edge lists. -/
def layerK (rows cols : IVec S4000000 32) (vals : FVec F S4000000 .f32) (x : FVec F S250000x64 .f32) :
    FVec F S250000x64 .f32 :=
  scatK (padI rows) (weightAll (takeK x (padI cols)) (padF vals))

/-- The table and its first three propagation steps, summed left to right and scaled by one quarter. -/
def meanK (rows cols : IVec S4000000 32) (vals : FVec F S4000000 .f32) (x : FVec F S250000x64 .f32) :
    FVec F S250000x64 .f32 :=
  scaleAll (addAll (addAll (addAll x (layerK rows cols vals x)) (layerK rows cols vals (layerK rows cols vals x)))
    (layerK rows cols vals (layerK rows cols vals (layerK rows cols vals x))))

/-- The batch's rows among the first 200000 rows of a table. -/
def tailUK (t : FVec F S250000x64 .f32) (u : IVec S4096 32) : FVec F S4096x64 .f32 :=
  Host.gather gather_S200000x64_S4096x1_S4096x64_1_0_n_n_0_1_164
    (extractStridedSlice S200000x64 ![0, 0] t slices_S250000x64_S200000x64_0_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 200000#32))) u))

/-- The batch's rows among the last 50000 rows of a table. -/
def tailIK (t : FVec F S250000x64 .f32) (u : IVec S4096 32) : FVec F S4096x64 .f32 :=
  Host.gather gather_S50000x64_S4096x1_S4096x64_1_0_n_n_0_1_164
    (extractStridedSlice S50000x64 ![200000, 0] t slices_S250000x64_S50000x64_200000_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 50000#32))) u))

end Cert.KernelIdeal.Spec

end
-- ==== Proof.ChainPre.lean ====
/-
  The buffers the first propagation step starts from, read off the run's boundary contents.

  Before the first guarded row read the program only pads its three edge lists: after those host operations the padded
  row positions, column positions and weights sit in their buffers, and the table argument is untouched.
-/
import proofs.«426908_j20014547599450_2_alg».proof.Proof.Gen.KernelIdeal.Frame
import proofs.«426908_j20014547599450_2_alg».proof.Proof.KChain

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- The buffer contents just before the first guarded row read, at the TensorCore's references. -/
abbrev V6 : (c : Dev nD) → (b : Ref sig .tc) → Buf (Elt F) ((c : Thread nD τ).loc b) := fun c b => W6 m ρ c b

/-! ## Each stretch, over any buffer contents: what it leaves untouched, and what it writes -/

/-- The first zero constant's stretch writes only that constant's buffer. -/
private theorem keep0 (X : Valuation τ sig (Elt F)) {r : Ref sig .tc} (h : r ≠ main_c) :
    StableHlo.after (hostOps0 (F := F)) X (Proc.devRef .tc r) = X (Proc.devRef .tc r) := by
  simp only [StableHlo.after_cons, StableHlo.after_nil]
  exact StableHlo.nullary_result_ne _ _ _ _ h

/-- The row list's padding writes only the copy of its pad value and the padded row list. -/
private theorem keep0_1 (X : Valuation τ sig (Elt F)) {r : Ref sig .tc} (h1 : r ≠ main_call0_v0) (h2 : r ≠ main_v0) :
    StableHlo.after (hostOps0_1 (F := F)) X (Proc.devRef .tc r) = X (Proc.devRef .tc r) := by
  simp only [StableHlo.after_cons, StableHlo.after_nil]
  exact (StableHlo.binary_result_ne _ _ _ _ _ _ _ _ h2).trans (StableHlo.unary_result_ne _ _ _ _ _ _ h1)

/-- The second zero constant's stretch writes only that constant's buffer. -/
private theorem keep0_2 (X : Valuation τ sig (Elt F)) {r : Ref sig .tc} (h : r ≠ main_c_0) :
    StableHlo.after (hostOps0_2 (F := F)) X (Proc.devRef .tc r) = X (Proc.devRef .tc r) := by
  simp only [StableHlo.after_cons, StableHlo.after_nil]
  exact StableHlo.nullary_result_ne _ _ _ _ h

/-- The column list's padding writes only the copy of its pad value and the padded column list. -/
private theorem keep0_3 (X : Valuation τ sig (Elt F)) {r : Ref sig .tc} (h1 : r ≠ main_call1_v0) (h2 : r ≠ main_v1) :
    StableHlo.after (hostOps0_3 (F := F)) X (Proc.devRef .tc r) = X (Proc.devRef .tc r) := by
  simp only [StableHlo.after_cons, StableHlo.after_nil]
  exact (StableHlo.binary_result_ne _ _ _ _ _ _ _ _ h2).trans (StableHlo.unary_result_ne _ _ _ _ _ _ h1)

/-- The float zero constant's stretch writes only that constant's buffer. -/
private theorem keep0_4 (X : Valuation τ sig (Elt F)) {r : Ref sig .tc} (h : r ≠ main_cst) :
    StableHlo.after (hostOps0_4 (F := F)) X (Proc.devRef .tc r) = X (Proc.devRef .tc r) := by
  simp only [StableHlo.after_cons, StableHlo.after_nil]
  exact StableHlo.nullary_result_ne _ _ _ _ h

/-- The weight list's padding writes only the copy of its pad value and the padded weight list. -/
private theorem keep0_5 (X : Valuation τ sig (Elt F)) {r : Ref sig .tc} (h1 : r ≠ main_call2_v0) (h2 : r ≠ main_v2) :
    StableHlo.after (hostOps0_5 (F := F)) X (Proc.devRef .tc r) = X (Proc.devRef .tc r) := by
  simp only [StableHlo.after_cons, StableHlo.after_nil]
  exact (StableHlo.binary_result_ne _ _ _ _ _ _ _ _ h2).trans (StableHlo.unary_result_ne _ _ _ _ _ _ h1)

/-- The first constant stretch leaves the word 0 in its buffer. -/
private theorem val0 (X : Valuation τ sig (Elt F)) :
    StableHlo.after (hostOps0 (F := F)) X (Proc.devRef .tc main_c) = constantI S_ 32 0#32 := by
  after_results

/-- The second constant stretch leaves the word 0 in its buffer. -/
private theorem val0_2 (X : Valuation τ sig (Elt F)) :
    StableHlo.after (hostOps0_2 (F := F)) X (Proc.devRef .tc main_c_0) = constantI S_ 32 0#32 := by
  after_results

/-- The float constant stretch leaves +0.0 in its buffer. -/
private theorem val0_4 (X : Valuation τ sig (Elt F)) :
    StableHlo.after (hostOps0_4 (F := F)) X (Proc.devRef .tc main_cst) = constant (F := F) S_ .f32 0x00000000#32 := by
  after_results

/-- The row list's padding: the list extended by 5888 copies of the pad value it was handed. -/
private theorem val0_1 (X : Valuation τ sig (Elt F)) :
    StableHlo.after (hostOps0_1 (F := F)) X (Proc.devRef .tc main_v0)
      = pad S4005888 ![0] ![5888] ![0] (X (Proc.devRef .tc main_arg1)) (id (X (Proc.devRef .tc main_c)))
          pads_S4000000_S4005888_058880 h_S_ := by
  after_results
  rfl

/-- The column list's padding, likewise. -/
private theorem val0_3 (X : Valuation τ sig (Elt F)) :
    StableHlo.after (hostOps0_3 (F := F)) X (Proc.devRef .tc main_v1)
      = pad S4005888 ![0] ![5888] ![0] (X (Proc.devRef .tc main_arg2)) (id (X (Proc.devRef .tc main_c_0)))
          pads_S4000000_S4005888_058880 h_S_ := by
  after_results
  rfl

/-- The weight list's padding, likewise. -/
private theorem val0_5 (X : Valuation τ sig (Elt F)) :
    StableHlo.after (hostOps0_5 (F := F)) X (Proc.devRef .tc main_v2)
      = pad S4005888 ![0] ![5888] ![0] (X (Proc.devRef .tc main_arg3)) (id (X (Proc.devRef .tc main_cst)))
          pads_S4000000_S4005888_058880 h_S_ := by
  after_results
  rfl

/-- After the three paddings: padded rows, padded columns, padded weights, and the table as launched. -/
theorem pre (c : Dev nD) :
    V6 m ρ c main_v0 = Spec.padI (m ((c : Thread nD τ).loc main_arg1))
    ∧ V6 m ρ c main_v1 = Spec.padI (m ((c : Thread nD τ).loc main_arg2))
    ∧ V6 m ρ c main_v2 = Spec.padF (m ((c : Thread nD τ).loc main_arg3))
    ∧ V6 m ρ c main_arg0 = m ((c : Thread nD τ).loc main_arg0) := by
  refine ⟨?_, ?_, ?_, ?_⟩
  · -- the padded rows: written by the first padding from the row argument and the first zero, then kept
    have ea : W1 m ρ c (Proc.devRef .tc main_arg1) = m ((c : Thread nD τ).loc main_arg1) :=
      keep0 (W0 m ρ c) (by decide)
    have ez : W1 m ρ c (Proc.devRef .tc main_c) = constantI S_ 32 0#32 := val0 (W0 m ρ c)
    calc V6 m ρ c main_v0
      _ = W5 m ρ c (Proc.devRef .tc main_v0) := keep0_5 (W5 m ρ c) (by decide) (by decide)
      _ = W4 m ρ c (Proc.devRef .tc main_v0) := keep0_4 (W4 m ρ c) (by decide)
      _ = W3 m ρ c (Proc.devRef .tc main_v0) := keep0_3 (W3 m ρ c) (by decide) (by decide)
      _ = W2 m ρ c (Proc.devRef .tc main_v0) := keep0_2 (W2 m ρ c) (by decide)
      _ = pad S4005888 ![0] ![5888] ![0] (W1 m ρ c (Proc.devRef .tc main_arg1)) (id (W1 m ρ c (Proc.devRef .tc main_c)))
            pads_S4000000_S4005888_058880 h_S_ := val0_1 (W1 m ρ c)
      _ = Spec.padI (m ((c : Thread nD τ).loc main_arg1)) := by rw [ea, ez]; rfl
  · -- the padded columns: the column argument is untouched up to the second padding, whose pad value is the
    -- second zero, written just before it
    have ea : W3 m ρ c (Proc.devRef .tc main_arg2) = m ((c : Thread nD τ).loc main_arg2) :=
      calc W3 m ρ c (Proc.devRef .tc main_arg2)
        _ = W2 m ρ c (Proc.devRef .tc main_arg2) := keep0_2 (W2 m ρ c) (by decide)
        _ = W1 m ρ c (Proc.devRef .tc main_arg2) := keep0_1 (W1 m ρ c) (by decide) (by decide)
        _ = W0 m ρ c (Proc.devRef .tc main_arg2) := keep0 (W0 m ρ c) (by decide)
        _ = m ((c : Thread nD τ).loc main_arg2) := rfl
    have ez : W3 m ρ c (Proc.devRef .tc main_c_0) = constantI S_ 32 0#32 := val0_2 (W2 m ρ c)
    calc V6 m ρ c main_v1
      _ = W5 m ρ c (Proc.devRef .tc main_v1) := keep0_5 (W5 m ρ c) (by decide) (by decide)
      _ = W4 m ρ c (Proc.devRef .tc main_v1) := keep0_4 (W4 m ρ c) (by decide)
      _ = pad S4005888 ![0] ![5888] ![0] (W3 m ρ c (Proc.devRef .tc main_arg2)) (id (W3 m ρ c (Proc.devRef .tc main_c_0)))
            pads_S4000000_S4005888_058880 h_S_ := val0_3 (W3 m ρ c)
      _ = Spec.padI (m ((c : Thread nD τ).loc main_arg2)) := by rw [ea, ez]; rfl
  · -- the padded weights: the weight argument is untouched up to the third padding, whose pad value is +0.0,
    -- written just before it
    have ea : W5 m ρ c (Proc.devRef .tc main_arg3) = m ((c : Thread nD τ).loc main_arg3) :=
      calc W5 m ρ c (Proc.devRef .tc main_arg3)
        _ = W4 m ρ c (Proc.devRef .tc main_arg3) := keep0_4 (W4 m ρ c) (by decide)
        _ = W3 m ρ c (Proc.devRef .tc main_arg3) := keep0_3 (W3 m ρ c) (by decide) (by decide)
        _ = W2 m ρ c (Proc.devRef .tc main_arg3) := keep0_2 (W2 m ρ c) (by decide)
        _ = W1 m ρ c (Proc.devRef .tc main_arg3) := keep0_1 (W1 m ρ c) (by decide) (by decide)
        _ = W0 m ρ c (Proc.devRef .tc main_arg3) := keep0 (W0 m ρ c) (by decide)
        _ = m ((c : Thread nD τ).loc main_arg3) := rfl
    have ez : W5 m ρ c (Proc.devRef .tc main_cst) = constant (F := F) S_ .f32 0x00000000#32 := val0_4 (W4 m ρ c)
    calc V6 m ρ c main_v2
      _ = pad S4005888 ![0] ![5888] ![0] (W5 m ρ c (Proc.devRef .tc main_arg3)) (id (W5 m ρ c (Proc.devRef .tc main_cst)))
            pads_S4000000_S4005888_058880 h_S_ := val0_5 (W5 m ρ c)
      _ = Spec.padF (m ((c : Thread nD τ).loc main_arg3)) := by rw [ea, ez]; rfl
  · -- the table: no stretch writes it
    calc V6 m ρ c main_arg0
      _ = W5 m ρ c (Proc.devRef .tc main_arg0) := keep0_5 (W5 m ρ c) (by decide) (by decide)
      _ = W4 m ρ c (Proc.devRef .tc main_arg0) := keep0_4 (W4 m ρ c) (by decide)
      _ = W3 m ρ c (Proc.devRef .tc main_arg0) := keep0_3 (W3 m ρ c) (by decide) (by decide)
      _ = W2 m ρ c (Proc.devRef .tc main_arg0) := keep0_2 (W2 m ρ c) (by decide)
      _ = W1 m ρ c (Proc.devRef .tc main_arg0) := keep0_1 (W1 m ρ c) (by decide) (by decide)
      _ = W0 m ρ c (Proc.devRef .tc main_arg0) := keep0 (W0 m ρ c) (by decide)
      _ = m ((c : Thread nD τ).loc main_arg0) := rfl

end Cert.KernelIdeal.Chain

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.RegionW.lean ====
/-
  What each edge-weighting region leaves in its output array, as one whole-array function of the arrays it reads.

  The region tiles the 4005888 edge rows by blocks of 8192 rows over 489 grid points; grid point t reads block t of the
  gathered rows and block t of the edge weights and writes block t of the output, each gathered row times its edge's
  weight, and the blocks cover the output exactly.
-/
import proofs.«426908_j20014547599450_2_alg».proof.Proof.Gen.KernelIdeal.Frame
import proofs.«426908_j20014547599450_2_alg».proof.Proof.KSpec
import Idealize.ShloMosaic.Lib.Pipeline.Value

set_option maxRecDepth 16384

noncomputable section

namespace Cert.KernelIdeal.RegionFinals

open Idealize.ShloMosaic Idealize.ShloMosaic.TcCoe Idealize.SL.Sem Idealize.ShloMosaic.ValueIdx
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The zero offsets of a whole-buffer access, rank 2 and rank 1. -/
private theorem zero2 : (![0, 0] : Fin 2 → Nat) = fun _ => 0 := funext fun a => by fin_cases a <;> rfl
private theorem zero1 : (![0] : Fin 1 → Nat) = fun _ => 0 := funext fun a => by fin_cases a; rfl

/-- A block of weights turned into a column and spread over the 64 columns, read at row r, column l, is the weight of
    row r. -/
private theorem spread_apply (x1 : Vec F S8192 .f32) (h1 : S8192.ShapeCasts S8192) (h2 : S8192.ShapeCasts S8192x1)
    (h3 : S8192x1.Broadcasts S8192x64) (j : S8192x64.Idx) :
    broadcastTo S8192x64 (shapeCast S8192x1 (shapeCast S8192 x1 h1) h2) h3 j
      = x1 (ix1 (⟨(j 0).val, (j 0).isLt⟩ : Fin 8192)) := by
  rw [shapeCast_self]
  refine (broadcastTo_apply _ h3 j (ix2 (⟨(j 0).val, (j 0).isLt⟩ : Fin 8192) (0 : Fin 1)) ?_).trans ?_
  · intro a
    match a with
    | ⟨0, _⟩ => rfl
    | ⟨1, _⟩ => rfl
  · refine shapeCast_apply _ h2 _ (ix1 (⟨(j 0).val, (j 0).isLt⟩ : Fin 8192)) ?_
    rw [Shape.rowMajor_val_one, Shape.rowMajor_val_two]
    show (j 0).val = (j 0).val * 1 + 0
    omega

/-! ## Region 0 -/

/-- The body's payload read at an index: the gathered entry times its row's weight. -/
private theorem pay0_apply (x0 : Vec F S8192x64 .f32) (x1 : Vec F S8192 .f32) (j : S8192x64.Idx) :
    k0_pay1 x0 x1 j = FloatOps.mulf (x0 j) (x1 (ix1 (⟨(j 0).val, (j 0).isLt⟩ : Fin 8192))) := by
  unfold k0_pay1
  show FloatOps.mulf (shapeCast S8192x64 x0 shapeCasts_S8192x64_S8192x64 j) (broadcastTo S8192x64 (shapeCast S8192x1 (shapeCast S8192 x1 shapeCasts_S8192_S8192) shapeCasts_S8192_S8192x1) broadcasts_S8192x1_S8192x64 j) = _
  rw [shapeCast_self, spread_apply]

/-- One entry of one point's result: when the point's block of gathered rows holds entry i of the gathered array at
    position j, and its block of weights holds the weight of i's row at j's row, the body leaves at j the weighted
    entry i. -/
private theorem point0_apply (x0 : Vec F S8192x64 .f32) (x1 : Vec F S8192 .f32)
    (g : S4005888x64.Idx → Elt F .f32) (v : S4005888.Idx → Elt F .f32) (j : S8192x64.Idx) (i : S4005888x64.Idx)
    (h0 : x0 j = g i)
    (h1 : x1 (ix1 (⟨(j 0).val, (j 0).isLt⟩ : Fin 8192)) = v (ix1 (⟨(i 0).val, (i 0).isLt⟩ : Fin 4005888))) :
    k0_pay1 x0 x1 j = Spec.weightAll g v i := by
  rw [pay0_apply, h0, h1]
  rfl

/-- The index maps, decided once over the grid: at point t every window is at block t along the rows, and the two
    matrices' windows at block 0 along the columns. -/
private theorem idx_facts0 : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

/-- What point t writes back is block t of the weighted rows. -/
private theorem flushed0_eq (c : Dev nD) (t : Fin cfg0.N) :
    (dat0 V c).flushed 2 t = ((cfg0.win 2).blk t).view.read (Elt F) (Spec.weightAll (V c main_v3) (V c main_v2)) := by
  show (cfg0.win 2).cut (grid0.coords t) ((dat0 V c).after 2 t) = _
  rw [after0_2]
  unfold out0_2
  rw [View.canon_unit_zero zero2]
  simp only [View.ld_unit_zero (S := S8192x64) zero2, View.ld_unit_zero (S := S8192) zero1]
  obtain ⟨e0, e1, e2, e3, e4⟩ := idx_facts0 t
  funext j
  show k0_pay1 (iblk0 V c 0 t) (iblk0 V c 1 t) j = Spec.weightAll (V c main_v3) (V c main_v2) (((cfg0.win 2).blk t).view.emb j)
  refine point0_apply _ _ _ _ j _ ?_ ?_
  · show V c main_v3 (((cfg0.win 0).blk t).view.emb j) = V c main_v3 (((cfg0.win 2).blk t).view.emb j)
    have h : ((cfg0.win 0).blk t).view.emb j = ((cfg0.win 2).blk t).view.emb j := by
      funext a
      apply Fin.ext
      match a with
      | ⟨0, _⟩ => show win0_0.index t (0 : Fin 2) * 8192 + 1 * (j 0).val = win0_2.index t (0 : Fin 2) * 8192 + 1 * (j 0).val; omega
      | ⟨1, _⟩ => show win0_0.index t (1 : Fin 2) * 64 + 1 * (j 1).val = win0_2.index t (1 : Fin 2) * 64 + 1 * (j 1).val; omega
    rw [h]
  · show V c main_v2 (((cfg0.win 1).blk t).view.emb (ix1 (⟨(j 0).val, (j 0).isLt⟩ : Fin 8192))) = V c main_v2 (ix1 (⟨((((cfg0.win 2).blk t).view.emb j) 0).val, ((((cfg0.win 2).blk t).view.emb j) 0).isLt⟩ : Fin 4005888))
    have h : ((cfg0.win 1).blk t).view.emb (ix1 (⟨(j 0).val, (j 0).isLt⟩ : Fin 8192)) = ix1 (⟨((((cfg0.win 2).blk t).view.emb j) 0).val, ((((cfg0.win 2).blk t).view.emb j) 0).isLt⟩ : Fin 4005888) := by
      funext a
      apply Fin.ext
      match a with
      | ⟨0, _⟩ => show win0_1.index t (0 : Fin 1) * 8192 + 1 * (j 0).val = win0_2.index t (0 : Fin 2) * 8192 + 1 * (j 0).val; omega
    rw [h]

/-- An entry of the output array lies in point t's block iff each of its coordinates lies in the block's range on
    that axis. -/
private theorem mem_blk0 (t : Fin cfg0.N) (i : S4005888x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v4).slice (win0_2.rect t)).set ↔ _
  rw [View.set_slice_whole, Rect.mem_set_unit]
  exact Iff.rfl

/-- The blocks cover the output array: row r lies in the block of point r / 8192, since 4005888 = 489 · 8192 and the
    block spans all 64 columns. -/
private theorem cover0 (i : S4005888x64.Idx) :
    ∃ t : Fin cfg0.N, (cfg0.win 2).flush t = true ∧ i ∈ ((cfg0.win 2).blk t).view.set := by
  have hi0 : (i 0).val < 4005888 := (i 0).isLt
  have hi1 : (i 1).val < 64 := (i 1).isLt
  have hN : cfg0.N = 489 := N_0
  have hlt : (i 0).val / 8192 < cfg0.N := by rw [hN]; omega
  obtain ⟨-, -, -, e3, e4⟩ := idx_facts0 ⟨(i 0).val / 8192, hlt⟩
  have e3' : win0_2.index ⟨(i 0).val / 8192, hlt⟩ (0 : Fin 2) = (i 0).val / 8192 := e3
  refine ⟨⟨(i 0).val / 8192, hlt⟩, flush0_2 _, ?_⟩
  rw [mem_blk0]
  intro a
  match a with
  | ⟨0, _⟩ => show win0_2.index ⟨(i 0).val / 8192, hlt⟩ (0 : Fin 2) * 8192 ≤ (i 0).val ∧ (i 0).val < win0_2.index ⟨(i 0).val / 8192, hlt⟩ (0 : Fin 2) * 8192 + 8192; omega
  | ⟨1, _⟩ => show win0_2.index ⟨(i 0).val / 8192, hlt⟩ (1 : Fin 2) * 64 ≤ (i 1).val ∧ (i 1).val < win0_2.index ⟨(i 0).val / 8192, hlt⟩ (1 : Fin 2) * 64 + 64; omega

/-- Region 0 (edge weighting, layer 1). -/
theorem final0 (c : Dev nD) : (dat0 V c).arrAt 2 cfg0.N = Spec.weightAll (V c main_v3) (V c main_v2) :=
  (dat0 V c).arrAt_eq_of_cover 2 _ (fun t _ => flushed0_eq V c t) cover0

/-! ## Region 2 -/

/-- The body's payload read at an index: the gathered entry times its row's weight. -/
private theorem pay2_apply (x0 : Vec F S8192x64 .f32) (x1 : Vec F S8192 .f32) (j : S8192x64.Idx) :
    k2_pay1 x0 x1 j = FloatOps.mulf (x0 j) (x1 (ix1 (⟨(j 0).val, (j 0).isLt⟩ : Fin 8192))) := by
  unfold k2_pay1
  show FloatOps.mulf (shapeCast S8192x64 x0 shapeCasts_S8192x64_S8192x64 j) (broadcastTo S8192x64 (shapeCast S8192x1 (shapeCast S8192 x1 shapeCasts_S8192_S8192) shapeCasts_S8192_S8192x1) broadcasts_S8192x1_S8192x64 j) = _
  rw [shapeCast_self, spread_apply]

/-- One entry of one point's result: when the point's block of gathered rows holds entry i of the gathered array at
    position j, and its block of weights holds the weight of i's row at j's row, the body leaves at j the weighted
    entry i. -/
private theorem point2_apply (x0 : Vec F S8192x64 .f32) (x1 : Vec F S8192 .f32)
    (g : S4005888x64.Idx → Elt F .f32) (v : S4005888.Idx → Elt F .f32) (j : S8192x64.Idx) (i : S4005888x64.Idx)
    (h0 : x0 j = g i)
    (h1 : x1 (ix1 (⟨(j 0).val, (j 0).isLt⟩ : Fin 8192)) = v (ix1 (⟨(i 0).val, (i 0).isLt⟩ : Fin 4005888))) :
    k2_pay1 x0 x1 j = Spec.weightAll g v i := by
  rw [pay2_apply, h0, h1]
  rfl

/-- The index maps, decided once over the grid: at point t every window is at block t along the rows, and the two
    matrices' windows at block 0 along the columns. -/
private theorem idx_facts2 : ∀ t : Fin cfg2.N, win2_0.index t (0 : Fin 2) = t.val ∧ win2_0.index t (1 : Fin 2) = 0
    ∧ win2_1.index t (0 : Fin 1) = t.val
    ∧ win2_2.index t (0 : Fin 2) = t.val ∧ win2_2.index t (1 : Fin 2) = 0 :=
  (by decide +kernel : ∀ t : Fin grid2.N, _)

/-- What point t writes back is block t of the weighted rows. -/
private theorem flushed2_eq (c : Dev nD) (t : Fin cfg2.N) :
    (dat2 V c).flushed 2 t = ((cfg2.win 2).blk t).view.read (Elt F) (Spec.weightAll (V c main_v9) (V c main_v2)) := by
  show (cfg2.win 2).cut (grid2.coords t) ((dat2 V c).after 2 t) = _
  rw [after2_2]
  unfold out2_2
  rw [View.canon_unit_zero zero2]
  simp only [View.ld_unit_zero (S := S8192x64) zero2, View.ld_unit_zero (S := S8192) zero1]
  obtain ⟨e0, e1, e2, e3, e4⟩ := idx_facts2 t
  funext j
  show k2_pay1 (iblk2 V c 0 t) (iblk2 V c 1 t) j = Spec.weightAll (V c main_v9) (V c main_v2) (((cfg2.win 2).blk t).view.emb j)
  refine point2_apply _ _ _ _ j _ ?_ ?_
  · show V c main_v9 (((cfg2.win 0).blk t).view.emb j) = V c main_v9 (((cfg2.win 2).blk t).view.emb j)
    have h : ((cfg2.win 0).blk t).view.emb j = ((cfg2.win 2).blk t).view.emb j := by
      funext a
      apply Fin.ext
      match a with
      | ⟨0, _⟩ => show win2_0.index t (0 : Fin 2) * 8192 + 1 * (j 0).val = win2_2.index t (0 : Fin 2) * 8192 + 1 * (j 0).val; omega
      | ⟨1, _⟩ => show win2_0.index t (1 : Fin 2) * 64 + 1 * (j 1).val = win2_2.index t (1 : Fin 2) * 64 + 1 * (j 1).val; omega
    rw [h]
  · show V c main_v2 (((cfg2.win 1).blk t).view.emb (ix1 (⟨(j 0).val, (j 0).isLt⟩ : Fin 8192))) = V c main_v2 (ix1 (⟨((((cfg2.win 2).blk t).view.emb j) 0).val, ((((cfg2.win 2).blk t).view.emb j) 0).isLt⟩ : Fin 4005888))
    have h : ((cfg2.win 1).blk t).view.emb (ix1 (⟨(j 0).val, (j 0).isLt⟩ : Fin 8192)) = ix1 (⟨((((cfg2.win 2).blk t).view.emb j) 0).val, ((((cfg2.win 2).blk t).view.emb j) 0).isLt⟩ : Fin 4005888) := by
      funext a
      apply Fin.ext
      match a with
      | ⟨0, _⟩ => show win2_1.index t (0 : Fin 1) * 8192 + 1 * (j 0).val = win2_2.index t (0 : Fin 2) * 8192 + 1 * (j 0).val; omega
    rw [h]

/-- An entry of the output array lies in point t's block iff each of its coordinates lies in the block's range on
    that axis. -/
private theorem mem_blk2 (t : Fin cfg2.N) (i : S4005888x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v10).slice (win2_2.rect t)).set ↔ _
  rw [View.set_slice_whole, Rect.mem_set_unit]
  exact Iff.rfl

/-- The blocks cover the output array: row r lies in the block of point r / 8192, since 4005888 = 489 · 8192 and the
    block spans all 64 columns. -/
private theorem cover2 (i : S4005888x64.Idx) :
    ∃ t : Fin cfg2.N, (cfg2.win 2).flush t = true ∧ i ∈ ((cfg2.win 2).blk t).view.set := by
  have hi0 : (i 0).val < 4005888 := (i 0).isLt
  have hi1 : (i 1).val < 64 := (i 1).isLt
  have hN : cfg2.N = 489 := N_2
  have hlt : (i 0).val / 8192 < cfg2.N := by rw [hN]; omega
  obtain ⟨-, -, -, e3, e4⟩ := idx_facts2 ⟨(i 0).val / 8192, hlt⟩
  have e3' : win2_2.index ⟨(i 0).val / 8192, hlt⟩ (0 : Fin 2) = (i 0).val / 8192 := e3
  refine ⟨⟨(i 0).val / 8192, hlt⟩, flush2_2 _, ?_⟩
  rw [mem_blk2]
  intro a
  match a with
  | ⟨0, _⟩ => show win2_2.index ⟨(i 0).val / 8192, hlt⟩ (0 : Fin 2) * 8192 ≤ (i 0).val ∧ (i 0).val < win2_2.index ⟨(i 0).val / 8192, hlt⟩ (0 : Fin 2) * 8192 + 8192; omega
  | ⟨1, _⟩ => show win2_2.index ⟨(i 0).val / 8192, hlt⟩ (1 : Fin 2) * 64 ≤ (i 1).val ∧ (i 1).val < win2_2.index ⟨(i 0).val / 8192, hlt⟩ (1 : Fin 2) * 64 + 64; omega

/-- Region 2 (edge weighting, layer 2). -/
theorem final2 (c : Dev nD) : (dat2 V c).arrAt 2 cfg2.N = Spec.weightAll (V c main_v9) (V c main_v2) :=
  (dat2 V c).arrAt_eq_of_cover 2 _ (fun t _ => flushed2_eq V c t) cover2

/-! ## Region 4 -/

/-- The body's payload read at an index: the gathered entry times its row's weight. -/
private theorem pay4_apply (x0 : Vec F S8192x64 .f32) (x1 : Vec F S8192 .f32) (j : S8192x64.Idx) :
    k4_pay1 x0 x1 j = FloatOps.mulf (x0 j) (x1 (ix1 (⟨(j 0).val, (j 0).isLt⟩ : Fin 8192))) := by
  unfold k4_pay1
  show FloatOps.mulf (shapeCast S8192x64 x0 shapeCasts_S8192x64_S8192x64 j) (broadcastTo S8192x64 (shapeCast S8192x1 (shapeCast S8192 x1 shapeCasts_S8192_S8192) shapeCasts_S8192_S8192x1) broadcasts_S8192x1_S8192x64 j) = _
  rw [shapeCast_self, spread_apply]

/-- One entry of one point's result: when the point's block of gathered rows holds entry i of the gathered array at
    position j, and its block of weights holds the weight of i's row at j's row, the body leaves at j the weighted
    entry i. -/
private theorem point4_apply (x0 : Vec F S8192x64 .f32) (x1 : Vec F S8192 .f32)
    (g : S4005888x64.Idx → Elt F .f32) (v : S4005888.Idx → Elt F .f32) (j : S8192x64.Idx) (i : S4005888x64.Idx)
    (h0 : x0 j = g i)
    (h1 : x1 (ix1 (⟨(j 0).val, (j 0).isLt⟩ : Fin 8192)) = v (ix1 (⟨(i 0).val, (i 0).isLt⟩ : Fin 4005888))) :
    k4_pay1 x0 x1 j = Spec.weightAll g v i := by
  rw [pay4_apply, h0, h1]
  rfl

/-- The index maps, decided once over the grid: at point t every window is at block t along the rows, and the two
    matrices' windows at block 0 along the columns. -/
private theorem idx_facts4 : ∀ t : Fin cfg4.N, win4_0.index t (0 : Fin 2) = t.val ∧ win4_0.index t (1 : Fin 2) = 0
    ∧ win4_1.index t (0 : Fin 1) = t.val
    ∧ win4_2.index t (0 : Fin 2) = t.val ∧ win4_2.index t (1 : Fin 2) = 0 :=
  (by decide +kernel : ∀ t : Fin grid4.N, _)

/-- What point t writes back is block t of the weighted rows. -/
private theorem flushed4_eq (c : Dev nD) (t : Fin cfg4.N) :
    (dat4 V c).flushed 2 t = ((cfg4.win 2).blk t).view.read (Elt F) (Spec.weightAll (V c main_v15) (V c main_v2)) := by
  show (cfg4.win 2).cut (grid4.coords t) ((dat4 V c).after 2 t) = _
  rw [after4_2]
  unfold out4_2
  rw [View.canon_unit_zero zero2]
  simp only [View.ld_unit_zero (S := S8192x64) zero2, View.ld_unit_zero (S := S8192) zero1]
  obtain ⟨e0, e1, e2, e3, e4⟩ := idx_facts4 t
  funext j
  show k4_pay1 (iblk4 V c 0 t) (iblk4 V c 1 t) j = Spec.weightAll (V c main_v15) (V c main_v2) (((cfg4.win 2).blk t).view.emb j)
  refine point4_apply _ _ _ _ j _ ?_ ?_
  · show V c main_v15 (((cfg4.win 0).blk t).view.emb j) = V c main_v15 (((cfg4.win 2).blk t).view.emb j)
    have h : ((cfg4.win 0).blk t).view.emb j = ((cfg4.win 2).blk t).view.emb j := by
      funext a
      apply Fin.ext
      match a with
      | ⟨0, _⟩ => show win4_0.index t (0 : Fin 2) * 8192 + 1 * (j 0).val = win4_2.index t (0 : Fin 2) * 8192 + 1 * (j 0).val; omega
      | ⟨1, _⟩ => show win4_0.index t (1 : Fin 2) * 64 + 1 * (j 1).val = win4_2.index t (1 : Fin 2) * 64 + 1 * (j 1).val; omega
    rw [h]
  · show V c main_v2 (((cfg4.win 1).blk t).view.emb (ix1 (⟨(j 0).val, (j 0).isLt⟩ : Fin 8192))) = V c main_v2 (ix1 (⟨((((cfg4.win 2).blk t).view.emb j) 0).val, ((((cfg4.win 2).blk t).view.emb j) 0).isLt⟩ : Fin 4005888))
    have h : ((cfg4.win 1).blk t).view.emb (ix1 (⟨(j 0).val, (j 0).isLt⟩ : Fin 8192)) = ix1 (⟨((((cfg4.win 2).blk t).view.emb j) 0).val, ((((cfg4.win 2).blk t).view.emb j) 0).isLt⟩ : Fin 4005888) := by
      funext a
      apply Fin.ext
      match a with
      | ⟨0, _⟩ => show win4_1.index t (0 : Fin 1) * 8192 + 1 * (j 0).val = win4_2.index t (0 : Fin 2) * 8192 + 1 * (j 0).val; omega
    rw [h]

/-- An entry of the output array lies in point t's block iff each of its coordinates lies in the block's range on
    that axis. -/
private theorem mem_blk4 (t : Fin cfg4.N) (i : S4005888x64.Idx) :
    i ∈ ((cfg4.win 2).blk t).view.set ↔ ∀ a : Fin 2, win4_2.index t a * S8192x64.size a ≤ (i a).val ∧ (i a).val < win4_2.index t a * S8192x64.size a + S8192x64.size a := by
  show i ∈ ((View.whole main_v16).slice (win4_2.rect t)).set ↔ _
  rw [View.set_slice_whole, Rect.mem_set_unit]
  exact Iff.rfl

/-- The blocks cover the output array: row r lies in the block of point r / 8192, since 4005888 = 489 · 8192 and the
    block spans all 64 columns. -/
private theorem cover4 (i : S4005888x64.Idx) :
    ∃ t : Fin cfg4.N, (cfg4.win 2).flush t = true ∧ i ∈ ((cfg4.win 2).blk t).view.set := by
  have hi0 : (i 0).val < 4005888 := (i 0).isLt
  have hi1 : (i 1).val < 64 := (i 1).isLt
  have hN : cfg4.N = 489 := N_4
  have hlt : (i 0).val / 8192 < cfg4.N := by rw [hN]; omega
  obtain ⟨-, -, -, e3, e4⟩ := idx_facts4 ⟨(i 0).val / 8192, hlt⟩
  have e3' : win4_2.index ⟨(i 0).val / 8192, hlt⟩ (0 : Fin 2) = (i 0).val / 8192 := e3
  refine ⟨⟨(i 0).val / 8192, hlt⟩, flush4_2 _, ?_⟩
  rw [mem_blk4]
  intro a
  match a with
  | ⟨0, _⟩ => show win4_2.index ⟨(i 0).val / 8192, hlt⟩ (0 : Fin 2) * 8192 ≤ (i 0).val ∧ (i 0).val < win4_2.index ⟨(i 0).val / 8192, hlt⟩ (0 : Fin 2) * 8192 + 8192; omega
  | ⟨1, _⟩ => show win4_2.index ⟨(i 0).val / 8192, hlt⟩ (1 : Fin 2) * 64 ≤ (i 1).val ∧ (i 1).val < win4_2.index ⟨(i 0).val / 8192, hlt⟩ (1 : Fin 2) * 64 + 64; omega

/-- Region 4 (edge weighting, layer 3). -/
theorem final4 (c : Dev nD) : (dat4 V c).arrAt 2 cfg4.N = Spec.weightAll (V c main_v15) (V c main_v2) :=
  (dat4 V c).arrAt_eq_of_cover 2 _ (fun t _ => flushed4_eq V c t) cover4

end Cert.KernelIdeal.RegionFinals

end
-- ==== Proof.RegionA.lean ====
/-
  What each accumulating region leaves in its output array, as one whole-array function of the arrays it reads.

  The region tiles the 250000 table rows by blocks of 5000 rows over 50 grid points; grid point t reads block t of both
  inputs and writes block t of the output, their entrywise sum, and the blocks cover the output exactly.

  Per region: the payload is the entrywise sum; the three windows' index maps agree at every point (row block t,
  column block 0); hence what point t writes back is block t of the sum of the two whole arrays; row r lies in the
  block of point r / 5000, so the blocks cover the array, and the array ends holding the sum.
-/
import proofs.«426908_j20014547599450_2_alg».proof.Proof.Gen.KernelIdeal.Frame
import proofs.«426908_j20014547599450_2_alg».proof.Proof.KSpec
import Idealize.ShloMosaic.Lib.Pipeline.Value

set_option maxRecDepth 16384

noncomputable section

namespace Cert.KernelIdeal.RegionFinals

open Idealize.ShloMosaic Idealize.ShloMosaic.TcCoe Idealize.SL.Sem Idealize.ShloMosaic.ValueIdx
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The body's one store starts at the origin of its buffer. -/
private theorem hz : (![0, 0] : Fin 2 → Nat) = fun _ => 0 :=
  funext fun a => match a with | ⟨0, _⟩ => rfl | ⟨1, _⟩ => rfl

/-! ## Region 1 -/

/-- The body's payload is the entrywise sum of its two loaded blocks (the cast between equal shapes is the identity). -/
private theorem pay1_eq (x0 x1 : Vec F S5000x64 .f32) : k1_pay1 x0 x1 = addf x0 x1 := by
  unfold k1_pay1
  simp only [shapeCast_self]

/-- The index maps over the grid: at point t every window sits at row block t, column block 0. -/
private theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the entrywise sum of the two arrays the region reads. -/
private theorem flushed1_eq (c : Dev nD) (t : Fin cfg1.N) :
    (dat1 V c).flushed 2 t = ((cfg1.win 2).blk t).view.read (Elt F) (Spec.addAll (V c main_arg0) (V c main_v7)) := by
  show (cfg1.win 2).cut (grid1.coords t) ((dat1 V c).after 2 t) = _
  rw [after1_2]
  unfold out1_2
  rw [View.canon_unit_zero hz]
  simp only [View.ld_unit_zero (S := S5000x64) hz]
  rw [pay1_eq]
  obtain ⟨e0, e1, e2, e3, e4, e5⟩ := idx_facts1 t
  funext j
  show FloatOps.addf (V c main_arg0 (((cfg1.win 0).blk t).view.emb j)) (V c main_v7 (((cfg1.win 1).blk t).view.emb j))
    = FloatOps.addf (V c main_arg0 (((cfg1.win 2).blk t).view.emb j)) (V c main_v7 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 64 + 1 * (j 1).val = win1_2.index t (1 : Fin 2) * 64 + 1 * (j 1).val; omega
  rw [h0, h1]

/-- An entry of the array lies in point t's block iff each coordinate lies in the block's range on its axis. -/
private theorem mem_blk1 (t : Fin cfg1.N) (i : S250000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v8).slice (win1_2.rect t)).set ↔ _
  rw [View.set_slice_whole, Rect.mem_set_unit]
  exact Iff.rfl

/-- Every entry is written back by some point: row r lies in the block of point r / 5000. -/
private theorem cover1 (i : S250000x64.Idx) :
    ∃ t : Fin cfg1.N, (cfg1.win 2).flush t = true ∧ i ∈ ((cfg1.win 2).blk t).view.set := by
  have hi0 : (i 0).val < 250000 := (i 0).isLt
  have hi1 : (i 1).val < 64 := (i 1).isLt
  have hq : (i 0).val / 5000 < 50 := by omega
  obtain ⟨-, -, -, -, e4, e5⟩ := idx_facts1 ⟨(i 0).val / 5000, hq⟩
  have e4' : win1_2.index ⟨(i 0).val / 5000, hq⟩ (0 : Fin 2) = (i 0).val / 5000 := e4
  refine ⟨⟨(i 0).val / 5000, hq⟩, flush1_2 _, ?_⟩
  rw [mem_blk1]
  intro a
  match a with
  | ⟨0, _⟩ => show win1_2.index ⟨(i 0).val / 5000, hq⟩ (0 : Fin 2) * 5000 ≤ (i 0).val ∧ (i 0).val < win1_2.index ⟨(i 0).val / 5000, hq⟩ (0 : Fin 2) * 5000 + 5000; omega
  | ⟨1, _⟩ => show win1_2.index ⟨(i 0).val / 5000, hq⟩ (1 : Fin 2) * 64 ≤ (i 1).val ∧ (i 1).val < win1_2.index ⟨(i 0).val / 5000, hq⟩ (1 : Fin 2) * 64 + 64; omega

/-- Region 1 (accumulate, layer 1). -/
theorem final1 (c : Dev nD) : (dat1 V c).arrAt 2 cfg1.N = Spec.addAll (V c main_arg0) (V c main_v7) :=
  (dat1 V c).arrAt_eq_of_cover 2 _ (fun t _ => flushed1_eq V c t) cover1

/-! ## Region 3 -/

/-- The body's payload is the entrywise sum of its two loaded blocks (the cast between equal shapes is the identity). -/
private theorem pay3_eq (x0 x1 : Vec F S5000x64 .f32) : k3_pay1 x0 x1 = addf x0 x1 := by
  unfold k3_pay1
  simp only [shapeCast_self]

/-- The index maps over the grid: at point t every window sits at row block t, column block 0. -/
private theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the entrywise sum of the two arrays the region reads. -/
private theorem flushed3_eq (c : Dev nD) (t : Fin cfg3.N) :
    (dat3 V c).flushed 2 t = ((cfg3.win 2).blk t).view.read (Elt F) (Spec.addAll (V c main_v8) (V c main_v13)) := by
  show (cfg3.win 2).cut (grid3.coords t) ((dat3 V c).after 2 t) = _
  rw [after3_2]
  unfold out3_2
  rw [View.canon_unit_zero hz]
  simp only [View.ld_unit_zero (S := S5000x64) hz]
  rw [pay3_eq]
  obtain ⟨e0, e1, e2, e3, e4, e5⟩ := idx_facts3 t
  funext j
  show FloatOps.addf (V c main_v8 (((cfg3.win 0).blk t).view.emb j)) (V c main_v13 (((cfg3.win 1).blk t).view.emb j))
    = FloatOps.addf (V c main_v8 (((cfg3.win 2).blk t).view.emb j)) (V c main_v13 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  rw [h0, h1]

/-- An entry of the array lies in point t's block iff each coordinate lies in the block's range on its axis. -/
private theorem mem_blk3 (t : Fin cfg3.N) (i : S250000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v14).slice (win3_2.rect t)).set ↔ _
  rw [View.set_slice_whole, Rect.mem_set_unit]
  exact Iff.rfl

/-- Every entry is written back by some point: row r lies in the block of point r / 5000. -/
private theorem cover3 (i : S250000x64.Idx) :
    ∃ t : Fin cfg3.N, (cfg3.win 2).flush t = true ∧ i ∈ ((cfg3.win 2).blk t).view.set := by
  have hi0 : (i 0).val < 250000 := (i 0).isLt
  have hi1 : (i 1).val < 64 := (i 1).isLt
  have hq : (i 0).val / 5000 < 50 := by omega
  obtain ⟨-, -, -, -, e4, e5⟩ := idx_facts3 ⟨(i 0).val / 5000, hq⟩
  have e4' : win3_2.index ⟨(i 0).val / 5000, hq⟩ (0 : Fin 2) = (i 0).val / 5000 := e4
  refine ⟨⟨(i 0).val / 5000, hq⟩, flush3_2 _, ?_⟩
  rw [mem_blk3]
  intro a
  match a with
  | ⟨0, _⟩ => show win3_2.index ⟨(i 0).val / 5000, hq⟩ (0 : Fin 2) * 5000 ≤ (i 0).val ∧ (i 0).val < win3_2.index ⟨(i 0).val / 5000, hq⟩ (0 : Fin 2) * 5000 + 5000; omega
  | ⟨1, _⟩ => show win3_2.index ⟨(i 0).val / 5000, hq⟩ (1 : Fin 2) * 64 ≤ (i 1).val ∧ (i 1).val < win3_2.index ⟨(i 0).val / 5000, hq⟩ (1 : Fin 2) * 64 + 64; omega

/-- Region 3 (accumulate, layer 2). -/
theorem final3 (c : Dev nD) : (dat3 V c).arrAt 2 cfg3.N = Spec.addAll (V c main_v8) (V c main_v13) :=
  (dat3 V c).arrAt_eq_of_cover 2 _ (fun t _ => flushed3_eq V c t) cover3

/-! ## Region 5 -/

/-- The body's payload is the entrywise sum of its two loaded blocks (the cast between equal shapes is the identity). -/
private theorem pay5_eq (x0 x1 : Vec F S5000x64 .f32) : k5_pay1 x0 x1 = addf x0 x1 := by
  unfold k5_pay1
  simp only [shapeCast_self]

/-- The index maps over the grid: at point t every window sits at row block t, column block 0. -/
private theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point t writes back is block t of the entrywise sum of the two arrays the region reads. -/
private theorem flushed5_eq (c : Dev nD) (t : Fin cfg5.N) :
    (dat5 V c).flushed 2 t = ((cfg5.win 2).blk t).view.read (Elt F) (Spec.addAll (V c main_v14) (V c main_v19)) := by
  show (cfg5.win 2).cut (grid5.coords t) ((dat5 V c).after 2 t) = _
  rw [after5_2]
  unfold out5_2
  rw [View.canon_unit_zero hz]
  simp only [View.ld_unit_zero (S := S5000x64) hz]
  rw [pay5_eq]
  obtain ⟨e0, e1, e2, e3, e4, e5⟩ := idx_facts5 t
  funext j
  show FloatOps.addf (V c main_v14 (((cfg5.win 0).blk t).view.emb j)) (V c main_v19 (((cfg5.win 1).blk t).view.emb j))
    = FloatOps.addf (V c main_v14 (((cfg5.win 2).blk t).view.emb j)) (V c main_v19 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 64 + 1 * (j 1).val = win5_2.index t (1 : Fin 2) * 64 + 1 * (j 1).val; omega
  rw [h0, h1]

/-- An entry of the array lies in point t's block iff each coordinate lies in the block's range on its axis. -/
private theorem mem_blk5 (t : Fin cfg5.N) (i : S250000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v20).slice (win5_2.rect t)).set ↔ _
  rw [View.set_slice_whole, Rect.mem_set_unit]
  exact Iff.rfl

/-- Every entry is written back by some point: row r lies in the block of point r / 5000. -/
private theorem cover5 (i : S250000x64.Idx) :
    ∃ t : Fin cfg5.N, (cfg5.win 2).flush t = true ∧ i ∈ ((cfg5.win 2).blk t).view.set := by
  have hi0 : (i 0).val < 250000 := (i 0).isLt
  have hi1 : (i 1).val < 64 := (i 1).isLt
  have hq : (i 0).val / 5000 < 50 := by omega
  obtain ⟨-, -, -, -, e4, e5⟩ := idx_facts5 ⟨(i 0).val / 5000, hq⟩
  have e4' : win5_2.index ⟨(i 0).val / 5000, hq⟩ (0 : Fin 2) = (i 0).val / 5000 := e4
  refine ⟨⟨(i 0).val / 5000, hq⟩, flush5_2 _, ?_⟩
  rw [mem_blk5]
  intro a
  match a with
  | ⟨0, _⟩ => show win5_2.index ⟨(i 0).val / 5000, hq⟩ (0 : Fin 2) * 5000 ≤ (i 0).val ∧ (i 0).val < win5_2.index ⟨(i 0).val / 5000, hq⟩ (0 : Fin 2) * 5000 + 5000; omega
  | ⟨1, _⟩ => show win5_2.index ⟨(i 0).val / 5000, hq⟩ (1 : Fin 2) * 64 ≤ (i 1).val ∧ (i 1).val < win5_2.index ⟨(i 0).val / 5000, hq⟩ (1 : Fin 2) * 64 + 64; omega

/-- Region 5 (accumulate, layer 3). -/
theorem final5 (c : Dev nD) : (dat5 V c).arrAt 2 cfg5.N = Spec.addAll (V c main_v14) (V c main_v19) :=
  (dat5 V c).arrAt_eq_of_cover 2 _ (fun t _ => flushed5_eq V c t) cover5

end Cert.KernelIdeal.RegionFinals

end
-- ==== Proof.ChainL1.lean ====
/-
  The first propagation step, read off the run's boundary contents.

  From the padded edge lists and the table, which is both the step's input and its running sum: the guarded row read, the edge-weighting
  region, the segment sum, and the accumulating region, in that order; each writes one new buffer and leaves the padded
  edge lists and the running sum's input alone.
-/
import proofs.«426908_j20014547599450_2_alg».proof.Proof.Gen.KernelIdeal.Frame
import proofs.«426908_j20014547599450_2_alg».proof.Proof.KChain
import proofs.«426908_j20014547599450_2_alg».proof.Proof.ChainPre
import proofs.«426908_j20014547599450_2_alg».proof.Proof.LibTypedRef
import proofs.«426908_j20014547599450_2_alg».proof.Proof.LibKeep
import proofs.«426908_j20014547599450_2_alg».proof.Proof.RegionW
import proofs.«426908_j20014547599450_2_alg».proof.Proof.RegionA

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibKeep

variable {F : FTy → Type} [FloatOps F]
variable (m : (ℓ : Loc nD τ sig) → Buf (Elt F) ℓ) (ρ : Dev nD → PrngReg)

/-! ### The guarded row read -/

/-- The guarded row read over any entry contents, with the moves between a buffer's own type and its value's type
    written out: rows of the step's input at the padded column positions. -/
theorem take1_cast (X : Valuation τ sig (Elt F)) :
    StableHlo.after (hostOps0_6 (F := F)) X (Proc.devRef .tc main_v3)
      = (StableHlo.TRef.of main_v3 : StableHlo.TRef sig ⟨S4005888x64, .f32⟩).toBuf
          (Spec.takeK ((StableHlo.TRef.of main_arg0 : StableHlo.TRef sig ⟨S250000x64, .f32⟩).ofBuf (X (Proc.devRef .tc main_arg0)))
            ((StableHlo.TRef.of main_v1 : StableHlo.TRef sig ⟨S4005888, .i32⟩).ofBuf (X (Proc.devRef .tc main_v1)))) := by
  after_results_simp
  simp only [Cert.LibTypedRef.ofBuf_toBuf]
  unfold Spec.takeK Spec.inRange Spec.idxCol Spec.normIdx
  rfl

/-- The same without the moves: at a literal reference each is the identity. -/
theorem take1_new (X : Valuation τ sig (Elt F)) :
    StableHlo.after (hostOps0_6 (F := F)) X (Proc.devRef .tc main_v3) = Spec.takeK (X (Proc.devRef .tc main_arg0)) (X (Proc.devRef .tc main_v1)) := by
  refine (take1_cast X).trans ?_
  rw [show (StableHlo.TRef.of main_arg0 : StableHlo.TRef sig ⟨S250000x64, .f32⟩).ofBuf (X (Proc.devRef .tc main_arg0)) = X (Proc.devRef .tc main_arg0) from rfl,
    show (StableHlo.TRef.of main_v1 : StableHlo.TRef sig ⟨S4005888, .i32⟩).ofBuf (X (Proc.devRef .tc main_v1)) = X (Proc.devRef .tc main_v1) from rfl]
  generalize Spec.takeK (X (Proc.devRef .tc main_arg0)) (X (Proc.devRef .tc main_v1)) = A
  rfl

theorem take1_v0 (X : Valuation τ sig (Elt F)) : StableHlo.after (hostOps0_6 (F := F)) X (Proc.devRef .tc main_v0) = X (Proc.devRef .tc main_v0) := by
  kept_host hostOps0_6
theorem take1_v1 (X : Valuation τ sig (Elt F)) : StableHlo.after (hostOps0_6 (F := F)) X (Proc.devRef .tc main_v1) = X (Proc.devRef .tc main_v1) := by
  kept_host hostOps0_6
theorem take1_v2 (X : Valuation τ sig (Elt F)) : StableHlo.after (hostOps0_6 (F := F)) X (Proc.devRef .tc main_v2) = X (Proc.devRef .tc main_v2) := by
  kept_host hostOps0_6
theorem take1_acc (X : Valuation τ sig (Elt F)) : StableHlo.after (hostOps0_6 (F := F)) X (Proc.devRef .tc main_arg0) = X (Proc.devRef .tc main_arg0) := by
  kept_host hostOps0_6

/-! ### The segment sum -/

/-- The segment sum over any entry contents: the weighted rows added into a zero table at the padded row positions. -/
theorem scat1_new (X : Valuation τ sig (Elt F)) :
    StableHlo.after (hostOps1 (F := F)) X (Proc.devRef .tc main_v7) = Spec.scatK (X (Proc.devRef .tc main_v0)) (X (Proc.devRef .tc main_v4)) := by
  after_results
  rfl

theorem scat1_v0 (X : Valuation τ sig (Elt F)) : StableHlo.after (hostOps1 (F := F)) X (Proc.devRef .tc main_v0) = X (Proc.devRef .tc main_v0) := by
  kept_host hostOps1
theorem scat1_v1 (X : Valuation τ sig (Elt F)) : StableHlo.after (hostOps1 (F := F)) X (Proc.devRef .tc main_v1) = X (Proc.devRef .tc main_v1) := by
  kept_host hostOps1
theorem scat1_v2 (X : Valuation τ sig (Elt F)) : StableHlo.after (hostOps1 (F := F)) X (Proc.devRef .tc main_v2) = X (Proc.devRef .tc main_v2) := by
  kept_host hostOps1
theorem scat1_acc (X : Valuation τ sig (Elt F)) : StableHlo.after (hostOps1 (F := F)) X (Proc.devRef .tc main_arg0) = X (Proc.devRef .tc main_arg0) := by
  kept_host hostOps1

/-! ### The step -/

/-- Step 1: the table is both the step's input and the running sum. -/
theorem layer1 (c : Dev nD) (x acc : FVec F S250000x64 .f32) (r cl : IVec S4005888 32) (vl : FVec F S4005888 .f32)
    (hx : V6 m ρ c main_arg0 = x) (hacc : V6 m ρ c main_arg0 = acc) (h0 : V6 m ρ c main_v0 = r)
    (h1 : V6 m ρ c main_v1 = cl) (h2 : V6 m ρ c main_v2 = vl) :
    V10 m ρ c main_v7 = Spec.scatK r (Spec.weightAll (Spec.takeK x cl) vl)
    ∧ V10 m ρ c main_v8 = Spec.addAll acc (Spec.scatK r (Spec.weightAll (Spec.takeK x cl) vl))
    ∧ V10 m ρ c main_v0 = r ∧ V10 m ρ c main_v1 = cl ∧ V10 m ρ c main_v2 = vl := by
  -- after the guarded row read
  have a_g : V7 m ρ c main_v3 = Spec.takeK x cl := (take1_new (W6 m ρ c)).trans (by rw [← hx, ← h1])
  have a_0 : V7 m ρ c main_v0 = r := (take1_v0 (W6 m ρ c)).trans h0
  have a_1 : V7 m ρ c main_v1 = cl := (take1_v1 (W6 m ρ c)).trans h1
  have a_2 : V7 m ρ c main_v2 = vl := (take1_v2 (W6 m ρ c)).trans h2
  have a_acc : V7 m ρ c main_arg0 = acc := (take1_acc (W6 m ρ c)).trans hacc
  -- after the edge-weighting region: its output array, and the buffers it does not write
  have b_msg : V8 m ρ c main_v4 = Spec.weightAll (Spec.takeK x cl) vl := by
    refine ((W8_arr m ρ c 2).trans (RegionFinals.final0 (V7 m ρ) c)).trans ?_
    rw [a_g, a_2]
  have b_0 : V8 m ρ c main_v0 = r := (W8_of_ne m ρ c main_v0 (by decide)).trans a_0
  have b_1 : V8 m ρ c main_v1 = cl := (W8_of_ne m ρ c main_v1 (by decide)).trans a_1
  have b_2 : V8 m ρ c main_v2 = vl :=
    ((W8_arr m ρ c 1).trans (((dat0 (V7 m ρ) c).arrAt_in 1 rfl _).trans (A_eq0 (V7 m ρ) c 1))).trans a_2
  have b_acc : V8 m ρ c main_arg0 = acc := (W8_of_ne m ρ c main_arg0 (by decide)).trans a_acc
  -- after the segment sum
  have c_e : V9 m ρ c main_v7 = Spec.scatK r (Spec.weightAll (Spec.takeK x cl) vl) :=
    (scat1_new (W8 m ρ c)).trans (by rw [← b_0, ← b_msg])
  have c_0 : V9 m ρ c main_v0 = r := (scat1_v0 (W8 m ρ c)).trans b_0
  have c_1 : V9 m ρ c main_v1 = cl := (scat1_v1 (W8 m ρ c)).trans b_1
  have c_2 : V9 m ρ c main_v2 = vl := (scat1_v2 (W8 m ρ c)).trans b_2
  have c_acc : V9 m ρ c main_arg0 = acc := (scat1_acc (W8 m ρ c)).trans b_acc
  -- after the accumulating region
  refine ⟨?_, ?_, ?_, ?_, ?_⟩
  · exact ((W10_arr m ρ c 1).trans (((dat1 (V9 m ρ) c).arrAt_in 1 rfl _).trans (A_eq1 (V9 m ρ) c 1))).trans c_e
  · refine ((W10_arr m ρ c 2).trans (RegionFinals.final1 (V9 m ρ) c)).trans ?_
    rw [c_acc, c_e]
  · exact (W10_of_ne m ρ c main_v0 (by decide)).trans c_0
  · exact (W10_of_ne m ρ c main_v1 (by decide)).trans c_1
  · exact (W10_of_ne m ρ c main_v2 (by decide)).trans c_2

end Cert.KernelIdeal.Chain

end
-- ==== Proof.ChainL2.lean ====
/-
  The second propagation step, read off the run's boundary contents.

  From the padded edge lists, the first step's result and the running sum: the guarded row read, the edge-weighting
  region, the segment sum, and the accumulating region, in that order; each writes one new buffer and leaves the padded
  edge lists and the running sum's input alone.
-/
import proofs.«426908_j20014547599450_2_alg».proof.Proof.Gen.KernelIdeal.Frame
import proofs.«426908_j20014547599450_2_alg».proof.Proof.KChain
import proofs.«426908_j20014547599450_2_alg».proof.Proof.LibTypedRef
import proofs.«426908_j20014547599450_2_alg».proof.Proof.LibKeep
import proofs.«426908_j20014547599450_2_alg».proof.Proof.RegionW
import proofs.«426908_j20014547599450_2_alg».proof.Proof.RegionA

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibKeep

variable {F : FTy → Type} [FloatOps F]
variable (m : (ℓ : Loc nD τ sig) → Buf (Elt F) ℓ) (ρ : Dev nD → PrngReg)

/-! ### The guarded row read -/

/-- The guarded row read over any entry contents, with the moves between a buffer's own type and its value's type
    written out: rows of the step's input at the padded column positions. -/
theorem take2_cast (X : Valuation τ sig (Elt F)) :
    StableHlo.after (hostOps2 (F := F)) X (Proc.devRef .tc main_v9)
      = (StableHlo.TRef.of main_v9 : StableHlo.TRef sig ⟨S4005888x64, .f32⟩).toBuf
          (Spec.takeK ((StableHlo.TRef.of main_v7 : StableHlo.TRef sig ⟨S250000x64, .f32⟩).ofBuf (X (Proc.devRef .tc main_v7)))
            ((StableHlo.TRef.of main_v1 : StableHlo.TRef sig ⟨S4005888, .i32⟩).ofBuf (X (Proc.devRef .tc main_v1)))) := by
  after_results_simp
  simp only [Cert.LibTypedRef.ofBuf_toBuf]
  unfold Spec.takeK Spec.inRange Spec.idxCol Spec.normIdx
  rfl

/-- The same without the moves: at a literal reference each is the identity. -/
theorem take2_new (X : Valuation τ sig (Elt F)) :
    StableHlo.after (hostOps2 (F := F)) X (Proc.devRef .tc main_v9) = Spec.takeK (X (Proc.devRef .tc main_v7)) (X (Proc.devRef .tc main_v1)) := by
  refine (take2_cast X).trans ?_
  rw [show (StableHlo.TRef.of main_v7 : StableHlo.TRef sig ⟨S250000x64, .f32⟩).ofBuf (X (Proc.devRef .tc main_v7)) = X (Proc.devRef .tc main_v7) from rfl,
    show (StableHlo.TRef.of main_v1 : StableHlo.TRef sig ⟨S4005888, .i32⟩).ofBuf (X (Proc.devRef .tc main_v1)) = X (Proc.devRef .tc main_v1) from rfl]
  generalize Spec.takeK (X (Proc.devRef .tc main_v7)) (X (Proc.devRef .tc main_v1)) = A
  rfl

theorem take2_v0 (X : Valuation τ sig (Elt F)) : StableHlo.after (hostOps2 (F := F)) X (Proc.devRef .tc main_v0) = X (Proc.devRef .tc main_v0) := by
  kept_host hostOps2
theorem take2_v1 (X : Valuation τ sig (Elt F)) : StableHlo.after (hostOps2 (F := F)) X (Proc.devRef .tc main_v1) = X (Proc.devRef .tc main_v1) := by
  kept_host hostOps2
theorem take2_v2 (X : Valuation τ sig (Elt F)) : StableHlo.after (hostOps2 (F := F)) X (Proc.devRef .tc main_v2) = X (Proc.devRef .tc main_v2) := by
  kept_host hostOps2
theorem take2_acc (X : Valuation τ sig (Elt F)) : StableHlo.after (hostOps2 (F := F)) X (Proc.devRef .tc main_v8) = X (Proc.devRef .tc main_v8) := by
  kept_host hostOps2

/-! ### The segment sum -/

/-- The segment sum over any entry contents: the weighted rows added into a zero table at the padded row positions. -/
theorem scat2_new (X : Valuation τ sig (Elt F)) :
    StableHlo.after (hostOps3 (F := F)) X (Proc.devRef .tc main_v13) = Spec.scatK (X (Proc.devRef .tc main_v0)) (X (Proc.devRef .tc main_v10)) := by
  after_results
  rfl

theorem scat2_v0 (X : Valuation τ sig (Elt F)) : StableHlo.after (hostOps3 (F := F)) X (Proc.devRef .tc main_v0) = X (Proc.devRef .tc main_v0) := by
  kept_host hostOps3
theorem scat2_v1 (X : Valuation τ sig (Elt F)) : StableHlo.after (hostOps3 (F := F)) X (Proc.devRef .tc main_v1) = X (Proc.devRef .tc main_v1) := by
  kept_host hostOps3
theorem scat2_v2 (X : Valuation τ sig (Elt F)) : StableHlo.after (hostOps3 (F := F)) X (Proc.devRef .tc main_v2) = X (Proc.devRef .tc main_v2) := by
  kept_host hostOps3
theorem scat2_acc (X : Valuation τ sig (Elt F)) : StableHlo.after (hostOps3 (F := F)) X (Proc.devRef .tc main_v8) = X (Proc.devRef .tc main_v8) := by
  kept_host hostOps3

/-! ### The step -/

/-- Step 2: input the first step's result, running sum the table plus that result. -/
theorem layer2 (c : Dev nD) (x acc : FVec F S250000x64 .f32) (r cl : IVec S4005888 32) (vl : FVec F S4005888 .f32)
    (hx : V10 m ρ c main_v7 = x) (hacc : V10 m ρ c main_v8 = acc) (h0 : V10 m ρ c main_v0 = r)
    (h1 : V10 m ρ c main_v1 = cl) (h2 : V10 m ρ c main_v2 = vl) :
    V14 m ρ c main_v13 = Spec.scatK r (Spec.weightAll (Spec.takeK x cl) vl)
    ∧ V14 m ρ c main_v14 = Spec.addAll acc (Spec.scatK r (Spec.weightAll (Spec.takeK x cl) vl))
    ∧ V14 m ρ c main_v0 = r ∧ V14 m ρ c main_v1 = cl ∧ V14 m ρ c main_v2 = vl := by
  -- after the guarded row read
  have a_g : V11 m ρ c main_v9 = Spec.takeK x cl := (take2_new (W10 m ρ c)).trans (by rw [← hx, ← h1])
  have a_0 : V11 m ρ c main_v0 = r := (take2_v0 (W10 m ρ c)).trans h0
  have a_1 : V11 m ρ c main_v1 = cl := (take2_v1 (W10 m ρ c)).trans h1
  have a_2 : V11 m ρ c main_v2 = vl := (take2_v2 (W10 m ρ c)).trans h2
  have a_acc : V11 m ρ c main_v8 = acc := (take2_acc (W10 m ρ c)).trans hacc
  -- after the edge-weighting region: its output array, and the buffers it does not write
  have b_msg : V12 m ρ c main_v10 = Spec.weightAll (Spec.takeK x cl) vl := by
    refine ((W12_arr m ρ c 2).trans (RegionFinals.final2 (V11 m ρ) c)).trans ?_
    rw [a_g, a_2]
  have b_0 : V12 m ρ c main_v0 = r := (W12_of_ne m ρ c main_v0 (by decide)).trans a_0
  have b_1 : V12 m ρ c main_v1 = cl := (W12_of_ne m ρ c main_v1 (by decide)).trans a_1
  have b_2 : V12 m ρ c main_v2 = vl :=
    ((W12_arr m ρ c 1).trans (((dat2 (V11 m ρ) c).arrAt_in 1 rfl _).trans (A_eq2 (V11 m ρ) c 1))).trans a_2
  have b_acc : V12 m ρ c main_v8 = acc := (W12_of_ne m ρ c main_v8 (by decide)).trans a_acc
  -- after the segment sum
  have c_e : V13 m ρ c main_v13 = Spec.scatK r (Spec.weightAll (Spec.takeK x cl) vl) :=
    (scat2_new (W12 m ρ c)).trans (by rw [← b_0, ← b_msg])
  have c_0 : V13 m ρ c main_v0 = r := (scat2_v0 (W12 m ρ c)).trans b_0
  have c_1 : V13 m ρ c main_v1 = cl := (scat2_v1 (W12 m ρ c)).trans b_1
  have c_2 : V13 m ρ c main_v2 = vl := (scat2_v2 (W12 m ρ c)).trans b_2
  have c_acc : V13 m ρ c main_v8 = acc := (scat2_acc (W12 m ρ c)).trans b_acc
  -- after the accumulating region
  refine ⟨?_, ?_, ?_, ?_, ?_⟩
  · exact ((W14_arr m ρ c 1).trans (((dat3 (V13 m ρ) c).arrAt_in 1 rfl _).trans (A_eq3 (V13 m ρ) c 1))).trans c_e
  · refine ((W14_arr m ρ c 2).trans (RegionFinals.final3 (V13 m ρ) c)).trans ?_
    rw [c_acc, c_e]
  · exact (W14_of_ne m ρ c main_v0 (by decide)).trans c_0
  · exact (W14_of_ne m ρ c main_v1 (by decide)).trans c_1
  · exact (W14_of_ne m ρ c main_v2 (by decide)).trans c_2

end Cert.KernelIdeal.Chain

end
-- ==== Proof.ChainL3.lean ====
/-
  The third propagation step, read off the run's boundary contents.

  From the padded edge lists, the second step's result and the running sum: the guarded row read, the edge-weighting
  region, the segment sum, and the accumulating region, in that order; each writes one new buffer and leaves the padded
  edge lists and the running sum's input alone.
-/
import proofs.«426908_j20014547599450_2_alg».proof.Proof.Gen.KernelIdeal.Frame
import proofs.«426908_j20014547599450_2_alg».proof.Proof.KChain
import proofs.«426908_j20014547599450_2_alg».proof.Proof.LibTypedRef
import proofs.«426908_j20014547599450_2_alg».proof.Proof.LibKeep
import proofs.«426908_j20014547599450_2_alg».proof.Proof.RegionW
import proofs.«426908_j20014547599450_2_alg».proof.Proof.RegionA

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat Cfg Window)
open Cert.LibKeep

variable {F : FTy → Type} [FloatOps F]
variable (m : (ℓ : Loc nD τ sig) → Buf (Elt F) ℓ) (ρ : Dev nD → PrngReg)

/-! ### The guarded row read -/

/-- The guarded row read over any entry contents, with the moves between a buffer's own type and its value's type
    written out: rows of the step's input at the padded column positions. -/
theorem take3_cast (X : Valuation τ sig (Elt F)) :
    StableHlo.after (hostOps4 (F := F)) X (Proc.devRef .tc main_v15)
      = (StableHlo.TRef.of main_v15 : StableHlo.TRef sig ⟨S4005888x64, .f32⟩).toBuf
          (Spec.takeK ((StableHlo.TRef.of main_v13 : StableHlo.TRef sig ⟨S250000x64, .f32⟩).ofBuf (X (Proc.devRef .tc main_v13)))
            ((StableHlo.TRef.of main_v1 : StableHlo.TRef sig ⟨S4005888, .i32⟩).ofBuf (X (Proc.devRef .tc main_v1)))) := by
  after_results_simp
  simp only [Cert.LibTypedRef.ofBuf_toBuf]
  unfold Spec.takeK Spec.inRange Spec.idxCol Spec.normIdx
  rfl

/-- The same without the moves: at a literal reference each is the identity. -/
theorem take3_new (X : Valuation τ sig (Elt F)) :
    StableHlo.after (hostOps4 (F := F)) X (Proc.devRef .tc main_v15) = Spec.takeK (X (Proc.devRef .tc main_v13)) (X (Proc.devRef .tc main_v1)) := by
  refine (take3_cast X).trans ?_
  rw [show (StableHlo.TRef.of main_v13 : StableHlo.TRef sig ⟨S250000x64, .f32⟩).ofBuf (X (Proc.devRef .tc main_v13)) = X (Proc.devRef .tc main_v13) from rfl,
    show (StableHlo.TRef.of main_v1 : StableHlo.TRef sig ⟨S4005888, .i32⟩).ofBuf (X (Proc.devRef .tc main_v1)) = X (Proc.devRef .tc main_v1) from rfl]
  generalize Spec.takeK (X (Proc.devRef .tc main_v13)) (X (Proc.devRef .tc main_v1)) = A
  rfl

theorem take3_v0 (X : Valuation τ sig (Elt F)) : StableHlo.after (hostOps4 (F := F)) X (Proc.devRef .tc main_v0) = X (Proc.devRef .tc main_v0) := by
  kept_host hostOps4
theorem take3_v1 (X : Valuation τ sig (Elt F)) : StableHlo.after (hostOps4 (F := F)) X (Proc.devRef .tc main_v1) = X (Proc.devRef .tc main_v1) := by
  kept_host hostOps4
theorem take3_v2 (X : Valuation τ sig (Elt F)) : StableHlo.after (hostOps4 (F := F)) X (Proc.devRef .tc main_v2) = X (Proc.devRef .tc main_v2) := by
  kept_host hostOps4
theorem take3_acc (X : Valuation τ sig (Elt F)) : StableHlo.after (hostOps4 (F := F)) X (Proc.devRef .tc main_v14) = X (Proc.devRef .tc main_v14) := by
  kept_host hostOps4

/-! ### The segment sum -/

/-- The segment sum over any entry contents: the weighted rows added into a zero table at the padded row positions. -/
theorem scat3_new (X : Valuation τ sig (Elt F)) :
    StableHlo.after (hostOps5 (F := F)) X (Proc.devRef .tc main_v19) = Spec.scatK (X (Proc.devRef .tc main_v0)) (X (Proc.devRef .tc main_v16)) := by
  after_results
  rfl

theorem scat3_v0 (X : Valuation τ sig (Elt F)) : StableHlo.after (hostOps5 (F := F)) X (Proc.devRef .tc main_v0) = X (Proc.devRef .tc main_v0) := by
  kept_host hostOps5
theorem scat3_v1 (X : Valuation τ sig (Elt F)) : StableHlo.after (hostOps5 (F := F)) X (Proc.devRef .tc main_v1) = X (Proc.devRef .tc main_v1) := by
  kept_host hostOps5
theorem scat3_v2 (X : Valuation τ sig (Elt F)) : StableHlo.after (hostOps5 (F := F)) X (Proc.devRef .tc main_v2) = X (Proc.devRef .tc main_v2) := by
  kept_host hostOps5
theorem scat3_acc (X : Valuation τ sig (Elt F)) : StableHlo.after (hostOps5 (F := F)) X (Proc.devRef .tc main_v14) = X (Proc.devRef .tc main_v14) := by
  kept_host hostOps5

/-! ### The step -/

/-- Step 3: input the second step's result, running sum the table plus the first two results. -/
theorem layer3 (c : Dev nD) (x acc : FVec F S250000x64 .f32) (r cl : IVec S4005888 32) (vl : FVec F S4005888 .f32)
    (hx : V14 m ρ c main_v13 = x) (hacc : V14 m ρ c main_v14 = acc) (h0 : V14 m ρ c main_v0 = r)
    (h1 : V14 m ρ c main_v1 = cl) (h2 : V14 m ρ c main_v2 = vl) :
    V18 m ρ c main_v19 = Spec.scatK r (Spec.weightAll (Spec.takeK x cl) vl)
    ∧ V18 m ρ c main_v20 = Spec.addAll acc (Spec.scatK r (Spec.weightAll (Spec.takeK x cl) vl))
    ∧ V18 m ρ c main_v0 = r ∧ V18 m ρ c main_v1 = cl ∧ V18 m ρ c main_v2 = vl := by
  -- after the guarded row read
  have a_g : V15 m ρ c main_v15 = Spec.takeK x cl := (take3_new (W14 m ρ c)).trans (by rw [← hx, ← h1])
  have a_0 : V15 m ρ c main_v0 = r := (take3_v0 (W14 m ρ c)).trans h0
  have a_1 : V15 m ρ c main_v1 = cl := (take3_v1 (W14 m ρ c)).trans h1
  have a_2 : V15 m ρ c main_v2 = vl := (take3_v2 (W14 m ρ c)).trans h2
  have a_acc : V15 m ρ c main_v14 = acc := (take3_acc (W14 m ρ c)).trans hacc
  -- after the edge-weighting region: its output array, and the buffers it does not write
  have b_msg : V16 m ρ c main_v16 = Spec.weightAll (Spec.takeK x cl) vl := by
    refine ((W16_arr m ρ c 2).trans (RegionFinals.final4 (V15 m ρ) c)).trans ?_
    rw [a_g, a_2]
  have b_0 : V16 m ρ c main_v0 = r := (W16_of_ne m ρ c main_v0 (by decide)).trans a_0
  have b_1 : V16 m ρ c main_v1 = cl := (W16_of_ne m ρ c main_v1 (by decide)).trans a_1
  have b_2 : V16 m ρ c main_v2 = vl :=
    ((W16_arr m ρ c 1).trans (((dat4 (V15 m ρ) c).arrAt_in 1 rfl _).trans (A_eq4 (V15 m ρ) c 1))).trans a_2
  have b_acc : V16 m ρ c main_v14 = acc := (W16_of_ne m ρ c main_v14 (by decide)).trans a_acc
  -- after the segment sum
  have c_e : V17 m ρ c main_v19 = Spec.scatK r (Spec.weightAll (Spec.takeK x cl) vl) :=
    (scat3_new (W16 m ρ c)).trans (by rw [← b_0, ← b_msg])
  have c_0 : V17 m ρ c main_v0 = r := (scat3_v0 (W16 m ρ c)).trans b_0
  have c_1 : V17 m ρ c main_v1 = cl := (scat3_v1 (W16 m ρ c)).trans b_1
  have c_2 : V17 m ρ c main_v2 = vl := (scat3_v2 (W16 m ρ c)).trans b_2
  have c_acc : V17 m ρ c main_v14 = acc := (scat3_acc (W16 m ρ c)).trans b_acc
  -- after the accumulating region
  refine ⟨?_, ?_, ?_, ?_, ?_⟩
  · exact ((W18_arr m ρ c 1).trans (((dat5 (V17 m ρ) c).arrAt_in 1 rfl _).trans (A_eq5 (V17 m ρ) c 1))).trans c_e
  · refine ((W18_arr m ρ c 2).trans (RegionFinals.final5 (V17 m ρ) c)).trans ?_
    rw [c_acc, c_e]
  · exact (W18_of_ne m ρ c main_v0 (by decide)).trans c_0
  · exact (W18_of_ne m ρ c main_v1 (by decide)).trans c_1
  · exact (W18_of_ne m ρ c main_v2 (by decide)).trans c_2

end Cert.KernelIdeal.Chain

end
-- ==== Proof.RegionS.lean ====
/-
  What the scaling region leaves in its output array, as one whole-array function of the array it reads.

  The region tiles the 250000 table rows by blocks of 5000 rows over 50 grid points; grid point t reads block t of the
  input and writes block t of the output, every entry times one quarter, and the blocks cover the output exactly.
-/
import proofs.«426908_j20014547599450_2_alg».proof.Proof.Gen.KernelIdeal.Frame
import proofs.«426908_j20014547599450_2_alg».proof.Proof.KSpec
import Idealize.ShloMosaic.Lib.Pipeline.Value

set_option maxRecDepth 16384

noncomputable section

namespace Cert.KernelIdeal.RegionFinals

open Idealize.ShloMosaic Idealize.ShloMosaic.TcCoe Idealize.SL.Sem Idealize.ShloMosaic.ValueIdx
open Cert.KernelIdeal Cert.KernelIdeal.Gen
open Idealize.ShloMosaic.Pipeline (Dat Cfg Window)

variable {F : FTy → Type} [FloatOps F]
variable (V : (c : Dev nD) → (b : Ref sig .tc) → Buf (Elt F) ((c : Thread nD τ).loc b))

/-- The zero offset of a block's one store, as a constant function. -/
private theorem zeroOff : (![0, 0] : Fin 2 → Nat) = fun _ => 0 := funext fun a => by fin_cases a <;> rfl

/-- The body's product, entry by entry: the loaded entry times the splat constant one quarter. -/
private theorem pay_eq (x0 : Vec F S5000x64 .f32) :
    k6_pay1 x0 = fun j => FloatOps.mulf (x0 j) (Scalar.ofBits .f32 0x3E800000#32) := by
  show mulf (shapeCast S5000x64 x0 shapeCasts_S5000x64_S5000x64) (broadcast S5000x64 (Scalar.ofBits .f32 0x3E800000#32)) = _
  rw [shapeCast_self]
  rfl

/-- The printed index maps, decided over the grid: both windows' block row is the point's number, the block column 0. -/
private theorem idx_facts : ∀ t : Fin cfg6.N, win6_0.index t (0 : Fin 2) = win6_1.index t (0 : Fin 2)
    ∧ win6_0.index t (1 : Fin 2) = win6_1.index t (1 : Fin 2)
    ∧ win6_1.index t (0 : Fin 2) = t.val ∧ win6_1.index t (1 : Fin 2) = 0 :=
  (by decide +kernel : ∀ t : Fin grid6.N, _)

/-- What point t writes back is block t of the scaled input array. -/
private theorem flushed_eq (c : Dev nD) (t : Fin cfg6.N) :
    (dat6 V c).flushed 1 t = ((cfg6.win 1).blk t).view.read (Elt F) (Spec.scaleAll (V c main_v20)) := by
  show (cfg6.win 1).cut (grid6.coords t) ((dat6 V c).after 1 t) = _
  rw [after6_1]
  unfold out6_1
  rw [View.canon_unit_zero zeroOff]
  simp only [View.ld_unit_zero (S := S5000x64) zeroOff]
  rw [pay_eq]
  obtain ⟨e0, e1, e2, e3⟩ := idx_facts t
  funext j
  show FloatOps.mulf (V c main_v20 (((cfg6.win 0).blk t).view.emb j)) (Scalar.ofBits .f32 0x3E800000#32)
    = FloatOps.mulf (V c main_v20 (((cfg6.win 1).blk t).view.emb j)) (Scalar.ofBits .f32 0x3E800000#32)
  have h0 : ((cfg6.win 0).blk t).view.emb j = ((cfg6.win 1).blk t).view.emb j := by
    funext a; apply Fin.ext
    match a with
    | ⟨0, _⟩ => show win6_0.index t (0 : Fin 2) * 5000 + 1 * (j 0).val = win6_1.index t (0 : Fin 2) * 5000 + 1 * (j 0).val; omega
    | ⟨1, _⟩ => show win6_0.index t (1 : Fin 2) * 64 + 1 * (j 1).val = win6_1.index t (1 : Fin 2) * 64 + 1 * (j 1).val; omega
  rw [h0]

/-- An index of the array is in point t's block iff each coordinate is in the block's range on its axis. -/
private theorem mem_blk (t : Fin cfg6.N) (i : S250000x64.Idx) :
    i ∈ ((cfg6.win 1).blk t).view.set ↔ ∀ a : Fin 2, win6_1.index t a * S5000x64.size a ≤ (i a).val ∧ (i a).val < win6_1.index t a * S5000x64.size a + S5000x64.size a := by
  show i ∈ ((View.whole main_v21).slice (win6_1.rect t)).set ↔ _
  rw [View.set_slice_whole, Rect.mem_set_unit]
  exact Iff.rfl

/-- Row r lies in the block of point r / 5000, so the blocks cover the array. -/
private theorem cover (i : S250000x64.Idx) :
    ∃ t : Fin cfg6.N, (cfg6.win 1).flush t = true ∧ i ∈ ((cfg6.win 1).blk t).view.set := by
  have hi0 : (i 0).val < 250000 := (i 0).isLt
  have hi1 : (i 1).val < 64 := (i 1).isLt
  have hN : cfg6.N = 50 := N_6
  let t : Fin cfg6.N := ⟨(i 0).val / 5000, by rw [hN]; omega⟩
  obtain ⟨-, -, e2, e3⟩ := idx_facts t
  have e2' : win6_1.index t (0 : Fin 2) = (i 0).val / 5000 := e2
  refine ⟨t, flush6_1 t, ?_⟩
  rw [mem_blk]
  intro a
  match a with
  | ⟨0, _⟩ => show win6_1.index t (0 : Fin 2) * 5000 ≤ (i 0).val ∧ (i 0).val < win6_1.index t (0 : Fin 2) * 5000 + 5000; omega
  | ⟨1, _⟩ => show win6_1.index t (1 : Fin 2) * 64 ≤ (i 1).val ∧ (i 1).val < win6_1.index t (1 : Fin 2) * 64 + 64; omega

/-- Region 6 (scale by one quarter). -/
theorem final6 (c : Dev nD) : (dat6 V c).arrAt 1 cfg6.N = Spec.scaleAll (V c main_v20) :=
  (dat6 V c).arrAt_eq_of_cover 1 (Spec.scaleAll (V c main_v20)) (fun t _ => flushed_eq V c t) cover

end Cert.KernelIdeal.RegionFinals

end
-- ==== Proof.ChainEnd.lean ====
/-
  The six results, read off the run's last boundary contents.

  The scaling region turns the running sum into the layer average; the closing host operations slice the average and
  the table argument into their user and item parts and read the batch rows of each.
-/
import proofs.«426908_j20014547599450_2_alg».proof.Proof.Gen.KernelIdeal.Frame
import proofs.«426908_j20014547599450_2_alg».proof.Proof.KChain
import proofs.«426908_j20014547599450_2_alg».proof.Proof.RegionS

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat Cfg Window)

variable {F : FTy → Type} [FloatOps F]
/-! ## The closing host operations, over any contents they start from -/

section Ops

variable (X : Valuation τ sig (Elt F))

/-- The user rows of the batch out of the averaged table. -/
private theorem ops_v32 : StableHlo.after (hostOps7 (F := F)) X (Proc.devRef .tc main_v32)
    = Spec.tailUK (X (Proc.devRef .tc main_v21)) (X (Proc.devRef .tc main_arg4)) := by
  after_results_simp
  rfl

/-- The positive item rows of the batch out of the averaged table. -/
private theorem ops_v39 : StableHlo.after (hostOps7 (F := F)) X (Proc.devRef .tc main_v39)
    = Spec.tailIK (X (Proc.devRef .tc main_v21)) (X (Proc.devRef .tc main_arg5)) := by
  after_results_simp
  rfl

/-- The negative item rows of the batch out of the averaged table. -/
private theorem ops_v46 : StableHlo.after (hostOps7 (F := F)) X (Proc.devRef .tc main_v46)
    = Spec.tailIK (X (Proc.devRef .tc main_v21)) (X (Proc.devRef .tc main_arg6)) := by
  after_results_simp
  rfl

/-- The user rows of the batch out of the table argument. -/
private theorem ops_v53 : StableHlo.after (hostOps7 (F := F)) X (Proc.devRef .tc main_v53)
    = Spec.tailUK (X (Proc.devRef .tc main_arg0)) (X (Proc.devRef .tc main_arg4)) := by
  after_results_simp
  rfl

/-- The positive item rows of the batch out of the table argument. -/
private theorem ops_v60 : StableHlo.after (hostOps7 (F := F)) X (Proc.devRef .tc main_v60)
    = Spec.tailIK (X (Proc.devRef .tc main_arg0)) (X (Proc.devRef .tc main_arg5)) := by
  after_results_simp
  rfl

/-- The negative item rows of the batch out of the table argument. -/
private theorem ops_v67 : StableHlo.after (hostOps7 (F := F)) X (Proc.devRef .tc main_v67)
    = Spec.tailIK (X (Proc.devRef .tc main_arg0)) (X (Proc.devRef .tc main_arg6)) := by
  after_results_simp
  rfl

/-- None of the closing operations writes the table argument or a batch argument. -/
private theorem ops_arg0 : StableHlo.after (hostOps7 (F := F)) X (Proc.devRef .tc main_arg0) = X (Proc.devRef .tc main_arg0) := by
  after_results_simp
private theorem ops_arg4 : StableHlo.after (hostOps7 (F := F)) X (Proc.devRef .tc main_arg4) = X (Proc.devRef .tc main_arg4) := by
  after_results_simp
private theorem ops_arg5 : StableHlo.after (hostOps7 (F := F)) X (Proc.devRef .tc main_arg5) = X (Proc.devRef .tc main_arg5) := by
  after_results_simp
private theorem ops_arg6 : StableHlo.after (hostOps7 (F := F)) X (Proc.devRef .tc main_arg6) = X (Proc.devRef .tc main_arg6) := by
  after_results_simp

end Ops

variable (m : (ℓ : Loc nD τ sig) → Buf (Elt F) ℓ) (ρ : Dev nD → PrngReg)

/-- From the running sum after the third step to the six result buffers. -/
theorem fin (c : Dev nD) (acc : FVec F S250000x64 .f32) (hacc : V18 m ρ c main_v20 = acc) :
    W20 m ρ c (Proc.devRef .tc main_v32) = Spec.tailUK (Spec.scaleAll acc) (m ((c : Thread nD τ).loc main_arg4))
    ∧ W20 m ρ c (Proc.devRef .tc main_v39) = Spec.tailIK (Spec.scaleAll acc) (m ((c : Thread nD τ).loc main_arg5))
    ∧ W20 m ρ c (Proc.devRef .tc main_v46) = Spec.tailIK (Spec.scaleAll acc) (m ((c : Thread nD τ).loc main_arg6))
    ∧ W20 m ρ c (Proc.devRef .tc main_v53) = Spec.tailUK (m ((c : Thread nD τ).loc main_arg0)) (m ((c : Thread nD τ).loc main_arg4))
    ∧ W20 m ρ c (Proc.devRef .tc main_v60) = Spec.tailIK (m ((c : Thread nD τ).loc main_arg0)) (m ((c : Thread nD τ).loc main_arg5))
    ∧ W20 m ρ c (Proc.devRef .tc main_v67) = Spec.tailIK (m ((c : Thread nD τ).loc main_arg0)) (m ((c : Thread nD τ).loc main_arg6)) := by
  -- the scaling region leaves the running sum times one quarter in its output array
  have h21 : W19 m ρ c (Proc.devRef .tc main_v21) = Spec.scaleAll acc := by
    rw [← hacc]
    exact (W19_arr m ρ c 1).trans (RegionFinals.final6 (V18 m ρ) c)
  -- an argument is as launched at the last boundary, and the closing operations do not write it
  have h0 : W19 m ρ c (Proc.devRef .tc main_arg0) = m ((c : Thread nD τ).loc main_arg0) :=
    (ops_arg0 (W19 m ρ c)).symm.trans (W20_main_arg0 m ρ c)
  have h4 : W19 m ρ c (Proc.devRef .tc main_arg4) = m ((c : Thread nD τ).loc main_arg4) :=
    (ops_arg4 (W19 m ρ c)).symm.trans (W20_main_arg4 m ρ c)
  have h5 : W19 m ρ c (Proc.devRef .tc main_arg5) = m ((c : Thread nD τ).loc main_arg5) :=
    (ops_arg5 (W19 m ρ c)).symm.trans (W20_main_arg5 m ρ c)
  have h6 : W19 m ρ c (Proc.devRef .tc main_arg6) = m ((c : Thread nD τ).loc main_arg6) :=
    (ops_arg6 (W19 m ρ c)).symm.trans (W20_main_arg6 m ρ c)
  refine ⟨?_, ?_, ?_, ?_, ?_, ?_⟩
  · exact (ops_v32 (W19 m ρ c)).trans (by rw [h21, h4])
  · exact (ops_v39 (W19 m ρ c)).trans (by rw [h21, h5])
  · exact (ops_v46 (W19 m ρ c)).trans (by rw [h21, h6])
  · exact (ops_v53 (W19 m ρ c)).trans (by rw [h0, h4])
  · exact (ops_v60 (W19 m ρ c)).trans (by rw [h0, h5])
  · exact (ops_v67 (W19 m ρ c)).trans (by rw [h0, h6])

end Cert.KernelIdeal.Chain

end
-- ==== Proof.ChainAll.lean ====
/-
  The six result buffers of the kernel program's run as the pure functions of its argument arrays.
-/
import proofs.«426908_j20014547599450_2_alg».proof.Proof.Gen.KernelIdeal.Frame
import proofs.«426908_j20014547599450_2_alg».proof.Proof.KChain
import proofs.«426908_j20014547599450_2_alg».proof.Proof.ChainPre
import proofs.«426908_j20014547599450_2_alg».proof.Proof.ChainL1
import proofs.«426908_j20014547599450_2_alg».proof.Proof.ChainL2
import proofs.«426908_j20014547599450_2_alg».proof.Proof.ChainL3
import proofs.«426908_j20014547599450_2_alg».proof.Proof.ChainEnd

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- The running sum after the three propagation steps: the table plus its first three propagation steps, added left to
    right. Each step's result is named as one propagation step of its input before the next step is taken. -/
private theorem running_sum (c : Dev nD) (a0 : FVec F S250000x64 .f32) (a1 a2 : IVec S4000000 32) (a3 : FVec F S4000000 .f32)
    (p0 : V6 m ρ c main_v0 = Spec.padI a1) (p1 : V6 m ρ c main_v1 = Spec.padI a2)
    (p2 : V6 m ρ c main_v2 = Spec.padF a3) (p3 : V6 m ρ c main_arg0 = a0) :
    V18 m ρ c main_v20 = Spec.addAll (Spec.addAll (Spec.addAll a0 (Spec.layerK a1 a2 a3 a0))
        (Spec.layerK a1 a2 a3 (Spec.layerK a1 a2 a3 a0)))
      (Spec.layerK a1 a2 a3 (Spec.layerK a1 a2 a3 (Spec.layerK a1 a2 a3 a0))) := by
  obtain ⟨x1, s1, r1, c1, v1⟩ := layer1 m ρ c a0 a0 (Spec.padI a1) (Spec.padI a2) (Spec.padF a3) p3 p3 p0 p1 p2
  have x1' : V10 m ρ c main_v7 = Spec.layerK a1 a2 a3 a0 := x1
  have s1' : V10 m ρ c main_v8 = Spec.addAll a0 (Spec.layerK a1 a2 a3 a0) := s1
  obtain ⟨x2, s2, r2, c2, v2⟩ := layer2 m ρ c (Spec.layerK a1 a2 a3 a0) (Spec.addAll a0 (Spec.layerK a1 a2 a3 a0))
    (Spec.padI a1) (Spec.padI a2) (Spec.padF a3) x1' s1' r1 c1 v1
  have x2' : V14 m ρ c main_v13 = Spec.layerK a1 a2 a3 (Spec.layerK a1 a2 a3 a0) := x2
  have s2' : V14 m ρ c main_v14 = Spec.addAll (Spec.addAll a0 (Spec.layerK a1 a2 a3 a0))
      (Spec.layerK a1 a2 a3 (Spec.layerK a1 a2 a3 a0)) := s2
  obtain ⟨-, s3, -, -, -⟩ := layer3 m ρ c (Spec.layerK a1 a2 a3 (Spec.layerK a1 a2 a3 a0))
    (Spec.addAll (Spec.addAll a0 (Spec.layerK a1 a2 a3 a0)) (Spec.layerK a1 a2 a3 (Spec.layerK a1 a2 a3 a0)))
    (Spec.padI a1) (Spec.padI a2) (Spec.padF a3) x2' s2' r2 c2 v2
  exact s3

/-- The layer average is by definition one quarter of that running sum. -/
private theorem mean_eq (a0 : FVec F S250000x64 .f32) (a1 a2 : IVec S4000000 32) (a3 : FVec F S4000000 .f32) :
    Spec.scaleAll (Spec.addAll (Spec.addAll (Spec.addAll a0 (Spec.layerK a1 a2 a3 a0))
        (Spec.layerK a1 a2 a3 (Spec.layerK a1 a2 a3 a0)))
      (Spec.layerK a1 a2 a3 (Spec.layerK a1 a2 a3 (Spec.layerK a1 a2 a3 a0)))) = Spec.meanK a1 a2 a3 a0 := rfl

/-- Every result buffer ends at the batch rows of the layer average, or of the table itself, of the launch arguments. -/
theorem results (c : Dev nD) :
    W20 m ρ c (Proc.devRef .tc main_v32) = Spec.tailUK (Spec.meanK (m ((c : Thread nD τ).loc main_arg1)) (m ((c : Thread nD τ).loc main_arg2)) (m ((c : Thread nD τ).loc main_arg3)) (m ((c : Thread nD τ).loc main_arg0))) (m ((c : Thread nD τ).loc main_arg4))
    ∧ W20 m ρ c (Proc.devRef .tc main_v39) = Spec.tailIK (Spec.meanK (m ((c : Thread nD τ).loc main_arg1)) (m ((c : Thread nD τ).loc main_arg2)) (m ((c : Thread nD τ).loc main_arg3)) (m ((c : Thread nD τ).loc main_arg0))) (m ((c : Thread nD τ).loc main_arg5))
    ∧ W20 m ρ c (Proc.devRef .tc main_v46) = Spec.tailIK (Spec.meanK (m ((c : Thread nD τ).loc main_arg1)) (m ((c : Thread nD τ).loc main_arg2)) (m ((c : Thread nD τ).loc main_arg3)) (m ((c : Thread nD τ).loc main_arg0))) (m ((c : Thread nD τ).loc main_arg6))
    ∧ W20 m ρ c (Proc.devRef .tc main_v53) = Spec.tailUK (m ((c : Thread nD τ).loc main_arg0)) (m ((c : Thread nD τ).loc main_arg4))
    ∧ W20 m ρ c (Proc.devRef .tc main_v60) = Spec.tailIK (m ((c : Thread nD τ).loc main_arg0)) (m ((c : Thread nD τ).loc main_arg5))
    ∧ W20 m ρ c (Proc.devRef .tc main_v67) = Spec.tailIK (m ((c : Thread nD τ).loc main_arg0)) (m ((c : Thread nD τ).loc main_arg6)) := by
  obtain ⟨p0, p1, p2, p3⟩ := pre m ρ c
  have hs := running_sum m ρ c _ _ _ _ p0 p1 p2 p3
  have h := fin m ρ c _ hs
  rw [mean_eq] at h
  exact h

end Cert.KernelIdeal.Chain

end
-- ==== Proof.RSpec.lean ====
/-
  The reference program's stages as pure functions of arrays: N = 250000 table rows of D = 64 columns, E = 4000000 edges.
  * `normR cols`: the edges' column positions read the NumPy way (w + N when w is negative), as a one-column array.
  * `layerR rows cols vals x`: one propagation step — row r of the result is the sum, over the edges e with rows e = r,
    of vals e times row `normR cols e` of x (the position clipped into the table).
  * `meanR`: the table plus its first three propagation steps, divided by four.
  * `tailU`, `tailI`: the batch rows picked out of the first 200000 rows (users) and of the last 50000 rows (items).
-/
import proofs.«426908_j20014547599450_2_alg».proof.ReferenceIdeal
import Idealize.ShloMosaic.Lib.ValueIdx

noncomputable section

namespace Cert.ReferenceIdeal.Spec

open Idealize.ShloMosaic Idealize.ShloMosaic.ValueIdx Cert.ReferenceIdeal Cert.ReferenceIdeal.Facts₀ Cert.ReferenceIdeal.Facts

variable {F : FTy → Type} [FloatOps F] [Cert.ReferenceIdeal.Facts]

/-- The edges' column positions, negative words shifted up by the table's length, as a one-column array. -/
def normR (cols : IVec S4000000 32) : IVec S4000000x1 32 :=
  broadcastInDim S4000000x1 ![0] bcast_S4000000_S4000000x1_0
    (select (cmpi .slt cols (broadcastInDim S4000000 ![] bcast_S_S4000000 (constantI S_ 32 0#32)))
      (addi cols (broadcastInDim S4000000 ![] bcast_S_S4000000 (constantI S_ 32 250000#32))) cols)

/-- One propagation step: weighted neighbour rows summed into each edge's row position. -/
def layerR (rows cols : IVec S4000000 32) (vals : FVec F S4000000 .f32) (x : FVec F S250000x64 .f32) :
    FVec F S250000x64 .f32 :=
  Host.scatterAdd scatter_S250000x64_S4000000x1_S4000000x64_1_0_0_1
    (broadcastInDim S250000x64 ![] bcast_S_S250000x64 (constant S_ .f32 0x00000000#32))
    (broadcastInDim S4000000x1 ![0] bcast_S4000000_S4000000x1_0 rows)
    (mulf (broadcastInDim S4000000x64 ![0, 1] bcast_S4000000x1_S4000000x64_0_1
        (broadcastInDim S4000000x1 ![0] bcast_S4000000_S4000000x1_0 vals))
      (Host.gather gather_S250000x64_S4000000x1_S4000000x64_1_0_n_n_0_1_164 x (normR cols)))

/-- The table and its first three propagation steps, averaged. -/
def meanR (rows cols : IVec S4000000 32) (vals : FVec F S4000000 .f32) (x : FVec F S250000x64 .f32) :
    FVec F S250000x64 .f32 :=
  Host.divf
    (addf (addf (addf x (layerR rows cols vals x)) (layerR rows cols vals (layerR rows cols vals x)))
      (layerR rows cols vals (layerR rows cols vals (layerR rows cols vals x))))
    (broadcastInDim S250000x64 ![] bcast_S_S250000x64 (constant S_ .f32 0x40800000#32))

/-- The batch's rows among the first 200000 rows of a table. -/
def tailU (t : FVec F S250000x64 .f32) (u : IVec S4096 32) : FVec F S4096x64 .f32 :=
  Host.gather gather_S200000x64_S4096x1_S4096x64_1_0_n_n_0_1_164
    (extractStridedSlice S200000x64 ![0, 0] t slices_S250000x64_S200000x64_0_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 200000#32))) u))

/-- The batch's rows among the last 50000 rows of a table. -/
def tailI (t : FVec F S250000x64 .f32) (u : IVec S4096 32) : FVec F S4096x64 .f32 :=
  Host.gather gather_S50000x64_S4096x1_S4096x64_1_0_n_n_0_1_164
    (extractStridedSlice S50000x64 ![200000, 0] t slices_S250000x64_S50000x64_200000_0)
    (broadcastInDim S4096x1 ![0] bcast_S4096_S4096x1_0
      (select (cmpi .slt u (broadcastInDim S4096 ![] bcast_S_S4096 (constantI S_ 32 0#32)))
        (addi u (broadcastInDim S4096 ![] bcast_S_S4096 (constantI S_ 32 50000#32))) u))

end Cert.ReferenceIdeal.Spec

end
-- ==== Proof.RefSide.lean ====
/-
  The reference program's six results as the stage functions of its argument arrays: the generated run states each
  result as one composed term, and that term is, symbol for symbol, the batch rows of the layer average (or of the
  table itself) built from the reference's stages.
-/
import proofs.«426908_j20014547599450_2_alg».proof.Proof.Gen.ReferenceIdeal.Run
import proofs.«426908_j20014547599450_2_alg».proof.Proof.RSpec

set_option maxRecDepth 16384

noncomputable section

namespace Cert.ReferenceIdeal.RefSide

open Idealize.ShloMosaic Idealize.ShloMosaic.TcCoe Idealize.SL.Sem
open Cert.ReferenceIdeal Cert.ReferenceIdeal.Gen Cert.ReferenceIdeal.Value

variable {F : FTy → Type} [FloatOps F]
variable (m : (ℓ : Loc nD τ sig) → Buf (Elt F) ℓ)

/-- The user rows of the layer average. -/
theorem out0 (c : Dev nD) : res_main_v54 m c
    = Spec.tailU (Spec.meanR (m ((c.tc : Thread nD τ).loc main_arg1)) (m ((c.tc : Thread nD τ).loc main_arg2))
        (m ((c.tc : Thread nD τ).loc main_arg3)) (m ((c.tc : Thread nD τ).loc main_arg0))) (m ((c.tc : Thread nD τ).loc main_arg4)) := by
  -- once the stage functions are opened both sides are the same composed term
  unfold res_main_v54 Spec.tailU Spec.meanR Spec.layerR Spec.normR
  rfl

/-- The positive item rows of the layer average. -/
theorem out1 (c : Dev nD) : res_main_v61 m c
    = Spec.tailI (Spec.meanR (m ((c.tc : Thread nD τ).loc main_arg1)) (m ((c.tc : Thread nD τ).loc main_arg2))
        (m ((c.tc : Thread nD τ).loc main_arg3)) (m ((c.tc : Thread nD τ).loc main_arg0))) (m ((c.tc : Thread nD τ).loc main_arg5)) := by
  -- once the stage functions are opened both sides are the same composed term
  unfold res_main_v61 Spec.tailI Spec.meanR Spec.layerR Spec.normR
  rfl

/-- The negative item rows of the layer average. -/
theorem out2 (c : Dev nD) : res_main_v68 m c
    = Spec.tailI (Spec.meanR (m ((c.tc : Thread nD τ).loc main_arg1)) (m ((c.tc : Thread nD τ).loc main_arg2))
        (m ((c.tc : Thread nD τ).loc main_arg3)) (m ((c.tc : Thread nD τ).loc main_arg0))) (m ((c.tc : Thread nD τ).loc main_arg6)) := by
  -- once the stage functions are opened both sides are the same composed term
  unfold res_main_v68 Spec.tailI Spec.meanR Spec.layerR Spec.normR
  rfl

end Cert.ReferenceIdeal.RefSide

end
-- ==== Proof.SpecPad.lean ====
/-
  Padding and position normalising, read at one entry.

  * Padding keeps the first 4000000 entries and appends zeros.
  * A normalised position is the word itself, or the word plus 250000 when the word is negative; for a word in
    [−250000, 250000) it lies in [0, 249999].
-/
import proofs.«426908_j20014547599450_2_alg».proof.Proof.KSpec
import proofs.«426908_j20014547599450_2_alg».proof.Proof.RSpec
import proofs.«426908_j20014547599450_2_alg».proof.Proof.Gen.KernelIdeal
import proofs.«426908_j20014547599450_2_alg».proof.Proof.Gen.ReferenceIdeal
import Idealize.ShloMosaic.PureOps.Ideal
import Idealize.ShloMosaic.Lib.ValueIdx
import Idealize.ShloMosaic.Lib.KernelVsHost
import Idealize.ShloMosaic.Lib.StableHlo.Predicate

noncomputable section

namespace Cert.SpecRead

open Idealize.ShloMosaic Idealize.ShloMosaic.ValueIdx

/-- Edge e of the unpadded vectors, as an edge of the padded ones. -/
abbrev up (e : Fin 4000000) : Fin 4005888 := ⟨e.val, by omega⟩

/-- A position word read the NumPy way. -/
abbrev norm (w : BitVec 32) : BitVec 32 := if w.toInt < 0 then w + 250000#32 else w

theorem padI_lo (x : IVec Cert.KernelIdeal.S4000000 32) (e : Fin 4000000) :
    Cert.KernelIdeal.Spec.padI x (ix1 (up e)) = x (ix1 e) := by
  -- entry e of the padded vector sits at low padding 0 plus e whole steps of the operand
  unfold Cert.KernelIdeal.Spec.padI
  exact pad_apply_of_inside _ _ _ x _ _ _ _ (ix1 e) (by
    intro a
    have ha : a = 0 := Subsingleton.elim _ _
    subst ha
    show e.val = 0 + e.val * (0 + 1); omega)

theorem padI_hi (x : IVec Cert.KernelIdeal.S4000000 32) (e : Fin 4005888) (h : 4000000 ≤ e.val) :
    Cert.KernelIdeal.Spec.padI x (ix1 e) = 0#32 := by
  -- an entry from 4000000 on lies past the operand's last entry, so it is the padding word
  unfold Cert.KernelIdeal.Spec.padI
  rw [pad_apply_of_not_inside _ _ _ x _ _ _ _ (0 : Fin 1) (by
    intro hin
    have h3 : (e.val - 0) / (0 + 1) < 4000000 := hin.2.2
    omega)]
  rfl

theorem padF_lo (x : FVec Ideal Cert.KernelIdeal.S4000000 .f32) (e : Fin 4000000) :
    Cert.KernelIdeal.Spec.padF (F := Ideal) x (ix1 (up e)) = x (ix1 e) := by
  unfold Cert.KernelIdeal.Spec.padF
  exact pad_apply_of_inside _ _ _ x _ _ _ _ (ix1 e) (by
    intro a
    have ha : a = 0 := Subsingleton.elim _ _
    subst ha
    show e.val = 0 + e.val * (0 + 1); omega)

theorem padF_hi (x : FVec Ideal Cert.KernelIdeal.S4000000 .f32) (e : Fin 4005888) (h : 4000000 ≤ e.val) :
    Cert.KernelIdeal.Spec.padF (F := Ideal) x (ix1 e) = (0 : EReal) := by
  -- past the operand the entry is the padding value, the float whose word is all zeros, which is the real 0
  unfold Cert.KernelIdeal.Spec.padF
  rw [pad_apply_of_not_inside _ _ _ x _ _ _ _ (0 : Fin 1) (by
    intro hin
    have h3 : (e.val - 0) / (0 + 1) < 4000000 := hin.2.2
    omega)]
  exact Ideal.ofBits_zero_f32

/-- The select of "w < 0" between w + 250000 and w is the normalised word. -/
private theorem sel_norm (w z c : BitVec 32) (hz : z = 0#32) (hc : c = 250000#32) :
    Scalar.select (IntOp.cmpi .slt w z) (IntOp.addi w c) w = norm w := by
  subst hz hc
  unfold norm
  by_cases hn : w.toInt < 0
  · have h1 : IntOp.cmpi .slt w 0#32 = 1#1 := IntOp.cmpi_slt.mpr (by simpa using hn)
    rw [h1, select_one, if_pos hn]; rfl
  · have h0 : IntOp.cmpi .slt w 0#32 = 0#1 := by
      have hne : IntOp.cmpi .slt w 0#32 ≠ 1#1 := fun h1 => hn (by simpa using IntOp.cmpi_slt.mp h1)
      revert hne
      generalize IntOp.cmpi .slt w 0#32 = b
      revert b; decide
    rw [h0, select_zero, if_neg hn]

theorem normIdx_apply (idx : IVec Cert.KernelIdeal.S4005888 32) (e : Fin 4005888) :
    Cert.KernelIdeal.Spec.normIdx idx (ix1 e) = norm (idx (ix1 e)) := by
  unfold Cert.KernelIdeal.Spec.normIdx
  rw [select_apply]
  exact sel_norm _ _ _ (StableHlo.Predicate.bcast_scalar _ Cert.KernelIdeal.Facts₀.h_S_ _ _)
    (StableHlo.Predicate.bcast_scalar _ Cert.KernelIdeal.Facts₀.h_S_ _ _)

theorem normR_apply (cols : IVec Cert.ReferenceIdeal.S4000000 32) (e : Fin 4000000) :
    Cert.ReferenceIdeal.Spec.normR cols (ix2 e (0 : Fin 1)) = norm (cols (ix1 e)) := by
  unfold Cert.ReferenceIdeal.Spec.normR
  have hix : (ix2 e (0 : Fin 1) : Cert.ReferenceIdeal.S4000000x1.Idx) = StableHlo.Predicate.ixP e := by
    funext a; match a with | ⟨0, _⟩ => rfl | ⟨1, _⟩ => rfl
  have hof : (Shape.Idx.ofFin e : (⟨1, ![4000000]⟩ : Shape).Idx) = ix1 e := by
    funext a; match a with | ⟨0, _⟩ => rfl
  rw [hix, StableHlo.Predicate.bcast_col1, hof, select_apply]
  exact sel_norm _ _ _ (StableHlo.Predicate.bcast_scalar _ (by decide) _ _)
    (StableHlo.Predicate.bcast_scalar _ (by decide) _ _)

theorem norm_inRange (w : BitVec 32) (h : -250000 ≤ w.toInt ∧ w.toInt < 250000) :
    0 ≤ (norm w).toInt ∧ (norm w).toInt ≤ 249999 := by
  obtain ⟨h1, h2⟩ := h
  unfold norm
  by_cases hn : w.toInt < 0
  · -- a negative word in [−250000, −1] plus 250000 lies in [0, 249999], so the sum does not wrap
    rw [if_pos hn, BitVec.toInt_add]
    have hc : (250000#32 : BitVec 32).toInt = 250000 := by decide
    rw [hc]
    have hb : (w.toInt + 250000).bmod (2 ^ 32) = w.toInt + 250000 := by
      apply Int.bmod_eq_of_le <;> omega
    rw [hb]; omega
  · rw [if_neg hn]; omega

end Cert.SpecRead

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.SpecTake.lean ====
/-
  The kernel's guarded row read at one entry: where the normalised position lies inside the table the range guard
  holds, so the not-a-number fill is not selected and the entry is the plain (clipped) row read.
-/
import proofs.«426908_j20014547599450_2_alg».proof.Proof.SpecPad
import proofs.«426908_j20014547599450_2_alg».proof.Proof.LibGatherRows
import Idealize.ShloMosaic.Lib.ReduceAll

noncomputable section

namespace Cert.SpecRead

open Idealize.ShloMosaic Idealize.ShloMosaic.ValueIdx

/-- A vector spread along the rows of an n × m array reads, at (p, q), the vector at p (m = 1: the vector as a column). -/
private theorem rows0_read {α : Type} {n m : Nat} (h₁ : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h₁ v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- A left fold by `and`, started at 1, over words that are all 1 stays 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a List.mem_cons_self
    have h11 : IntOp.andi (1#1 : BitVec 1) 1#1 = 1#1 := by decide
    rw [List.foldl_cons, ha, h11]
    exact foldl_andi_one f l fun n hn => h n (List.mem_cons_of_mem _ hn)

/-- A reduction by `and` from 1 is 1 at j when every entry that reduces into j is 1. -/
private theorem reduce_andi_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  have h2 := (List.mem_filter.1 hi).2
  simpa using h2

/-- The range guard at an edge whose column entry lies in [0, 249999] is 1: the reduction runs over the single entry
    (e, 0), and both comparisons hold there. -/
private theorem inRange_one (i5 : IVec Cert.KernelIdeal.S4005888x1 32) (e : Fin 4005888)
    (h : 0 ≤ (i5 (ix2 e (0 : Fin 1))).toInt ∧ (i5 (ix2 e (0 : Fin 1))).toInt ≤ 249999) :
    Cert.KernelIdeal.Spec.inRange i5 (ix1 e) = 1#1 := by
  unfold Cert.KernelIdeal.Spec.inRange
  refine reduce_andi_one _ _ _ _ _ rfl fun i hi => ?_
  have hi0 : i = ix2 e (0 : Fin 1) := by
    funext a
    match a with
    | ⟨0, _⟩ =>
      apply Fin.ext
      have h0 := Shape.ReducesTo.drop_apply_val_of_eq
        Cert.KernelIdeal.Facts₀.reducesTo_S4005888x1_S4005888_d1 i (0 : Fin 1) (0 : Fin 2)
      rw [hi] at h0
      exact h0.symm
    | ⟨1, h1⟩ =>
      apply Fin.ext
      have hlt : (i ⟨1, h1⟩).val < 1 := (i ⟨1, h1⟩).isLt
      show (i ⟨1, h1⟩).val = 0
      omega
  subst hi0
  show IntOp.andi (IntOp.cmpi .sge (i5 (ix2 e (0 : Fin 1))) 0#32)
    (IntOp.cmpi .sle (i5 (ix2 e (0 : Fin 1))) 249999#32) = 1#1
  rw [IntOp.andi_eq_one, IntOp.cmpi_sge, IntOp.cmpi_sle]
  have h0 : (0#32 : BitVec 32).toInt = 0 := by decide
  have h1 : (249999#32 : BitVec 32).toInt = 249999 := by decide
  rw [h0, h1]
  exact h

/-- The guarded row read at an edge whose normalised position is inside the table. -/
theorem takeK_apply (x : FVec Ideal Cert.KernelIdeal.S250000x64 .f32) (idx : IVec Cert.KernelIdeal.S4005888 32)
    (e : Fin 4005888) (k : Fin 64)
    (h : 0 ≤ (norm (idx (ix1 e))).toInt ∧ (norm (idx (ix1 e))).toInt ≤ 249999) :
    Cert.KernelIdeal.Spec.takeK (F := Ideal) x idx (ix2 e k)
      = x (ix2 (⟨min (norm (idx (ix1 e))).toInt.toNat (250000 - 1), by omega⟩ : Fin 250000) k) := by
  -- the one-column array of normalised positions at (e, 0) is the normalised word of edge e
  have hcol : Cert.KernelIdeal.Spec.idxCol idx (ix2 e (0 : Fin 1)) = norm (idx (ix1 e)) := by
    unfold Cert.KernelIdeal.Spec.idxCol
    rw [rows0_read, normIdx_apply]
  -- the mask at (e, k) is the range guard of edge e, which holds
  have hmask : broadcastInDim Cert.KernelIdeal.S4005888x64 ![0] Cert.KernelIdeal.Facts₀.bcast_S4005888_S4005888x64_0
      (Cert.KernelIdeal.Spec.inRange (Cert.KernelIdeal.Spec.idxCol idx)) (ix2 e k) = 1#1 := by
    rw [rows0_read]
    exact inRange_one _ e (by rw [hcol]; exact h)
  unfold Cert.KernelIdeal.Spec.takeK
  rw [select_apply, hmask, select_one]
  -- the row read itself: row (clipped position of edge e), column k
  refine (Cert.LibGatherRows.gather_rows_apply _ rfl rfl rfl rfl rfl rfl x _ e k (by decide)).trans ?_
  refine congrArg x (congrArg (fun r : Fin 250000 => ix2 r k) (Fin.ext ?_))
  show min (Cert.KernelIdeal.Spec.idxCol idx (ix2 e (0 : Fin 1))).toInt.toNat (250000 - 1)
    = min (norm (idx (ix1 e))).toInt.toNat (250000 - 1)
  rw [hcol]

end Cert.SpecRead

end
-- ==== Proof.LibScatter.lean ====
/-
  A host scatter-add read at one element, at the exact (extended-real) instance, for the two layouts of a
  segment sum: one number per edge added into a vector at the edge's index word, and one row per edge added into
  a table at the row its index word names. An index word outside the operand (read signed, not clipped) drops
  its update. And a host maximum over the rows of a table, read at a column, as the supremum over the rows.
-/
import Idealize.ShloMosaic.PureOps.Ideal
import Idealize.ShloMosaic.PureOps.Ideal.Laws
import Idealize.ShloMosaic.PureOps.Contract
import Idealize.ShloMosaic.PureOps.Reduce
import Idealize.ShloMosaic.Lib.ValueIdx
import Idealize.ShloMosaic.Lib.Pipeline.Value

noncomputable section

open scoped BigOperators

namespace Cert.LibScatter

open Idealize.ShloMosaic Idealize.ShloMosaic.ValueIdx

/-- An update lands on element `i` exactly when, on every operand axis, its window start plus its window
    coordinate is that axis's coordinate of `i`. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e' := Option.some.inj e
      have e2 := congrArg (fun f : s.Idx => (f a).val) e'
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-! ## The vector layout: one number per edge -/

/-- On the vector's one axis an update's window starts at its edge's index word, read signed. -/
private theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ix2 (j 0) (0 : Fin 1))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
private theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- The vector scatter-add at element `c`: the operand's element plus the updates of the edges whose index
    word, read signed, is `c`. -/
theorem scatterAdd_vec_read {C n : Nat} {φ : FTy} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → EReal) (idx : IVec ⟨2, ![n, 1]⟩ 32) (upd : (⟨1, ![n]⟩ : Shape).Idx → EReal) (c : Fin C) :
    Host.scatterAdd (F := Ideal) (φ := φ) d x idx upd (ix1 c)
      = x (ix1 c) + ∑ e ∈ Finset.univ.filter (fun e : Fin n => (idx (ix2 e (0 : Fin 1))).toInt = (c.val : ℤ)),
          upd (ix1 e) := by
  have key : ∀ j : (⟨1, ![n]⟩ : Shape).Idx,
      d.resultIdx? j idx = some (ix1 c) ↔ (idx (ix2 (j 0) (0 : Fin 1))).toInt = (c.val : ℤ) := by
    intro j
    rw [resultIdx?_eq_some_iff]
    constructor
    · intro e
      have e0 : d.start j idx 0 + (d.window j 0 : ℤ) = (c.val : ℤ) := e 0
      rw [vec_start d h1 h2 h3 h4, vec_window d h1 h2 h3 h4] at e0
      simpa using e0
    · intro e a
      have ea : d.start j idx a + (d.window j a : ℤ) = (c.val : ℤ) := by
        rw [vec_start d h1 h2 h3 h4, vec_window d h1 h2 h3 h4]
        simpa using e
      match a with
      | ⟨0, _⟩ => exact ea
  show Ideal.hostScatterAdd d x idx upd (ix1 c) = _
  unfold Ideal.hostScatterAdd
  congr 1
  refine Finset.sum_nbij' (fun j : (⟨1, ![n]⟩ : Shape).Idx => (j 0 : Fin n)) (fun e => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _; exact (eq_ix1 j).symm
  · intro e _; rfl
  · intro j _; exact congrArg upd (eq_ix1 j)

/-! ## The table layout: one row per edge -/

/-- On the table's row axis an update's window starts at its edge's index word, read signed. -/
private theorem rows_start0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  split_ifs with ha
  · refine congrArg (fun v => (idx v).toInt) ?_
    funext b
    apply Fin.ext
    fin_cases b <;> rfl
  · exact absurd (List.mem_singleton.2 rfl) ha

/-- The table's column axis is not a scattered one: the window starts at zero there. -/
private theorem rows_start1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (idx : IVec ⟨2, ![n, 1]⟩ 32) (j : (⟨2, ![n, D]⟩ : Shape).Idx) :
    d.start j idx 1 = 0 := by
  obtain ⟨uw, iw, sd, iv, wf⟩ := d
  dsimp only at h1 h2 h3 h4
  subst h1 h2 h3 h4
  unfold ScatterDims.start
  split_ifs with ha
  · exact absurd (congrArg Fin.val (List.mem_singleton.1 ha)) Nat.one_ne_zero
  · rfl

/-- The table's row axis is an inserted one: the window coordinate there is zero. -/
private theorem rows_window0 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 0 = 0 := by
  obtain ⟨uw, iw, sd, iv, wf⟩ := d
  dsimp only at h1 h2 h3 h4
  subst h1 h2 h3 h4
  unfold ScatterDims.window
  split_ifs with ha
  · exact absurd (show (0 : Fin 2) ∈ ([1] : List (Fin 2)) from ha) (by decide)
  · rfl

/-- On the table's column axis the window coordinate is the update's column. -/
private theorem rows_window1 {C D n : Nat} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1) (j : (⟨2, ![n, D]⟩ : Shape).Idx) :
    d.window j 1 = (j 1).val := by
  obtain ⟨uw, iw, sd, iv, wf⟩ := d
  dsimp only at h1 h2 h3 h4
  subst h1 h2 h3 h4
  unfold ScatterDims.window
  split_ifs with ha
  · rfl
  · exact absurd (show (1 : Fin 2) ∈ ([1] : List (Fin 2)) from List.mem_singleton.2 rfl) ha

/-- The row scatter-add at element `(c, k)`: the operand's element plus the updates `(e, k)` of the edges `e`
    whose index word, read signed, is `c`. -/
theorem scatterAdd_rows_read {C D n : Nat} {φ : FTy} (d : ScatterDims ⟨2, ![C, D]⟩ ⟨2, ![n, 1]⟩ ⟨2, ![n, D]⟩)
    (h1 : d.updateWindowDims = [1]) (h2 : d.insertedWindowDims = [0]) (h3 : d.scatterDimsToOperandDims = [0])
    (h4 : d.indexVectorDim = 1)
    (x : (⟨2, ![C, D]⟩ : Shape).Idx → EReal) (idx : IVec ⟨2, ![n, 1]⟩ 32) (upd : (⟨2, ![n, D]⟩ : Shape).Idx → EReal)
    (c : Fin C) (k : Fin D) :
    Host.scatterAdd (F := Ideal) (φ := φ) d x idx upd (ix2 c k)
      = x (ix2 c k) + ∑ e ∈ Finset.univ.filter (fun e : Fin n => (idx (ix2 e (0 : Fin 1))).toInt = (c.val : ℤ)),
          upd (ix2 e k) := by
  have key : ∀ j : (⟨2, ![n, D]⟩ : Shape).Idx,
      d.resultIdx? j idx = some (ix2 c k)
        ↔ ((idx (ix2 (j 0) (0 : Fin 1))).toInt = (c.val : ℤ) ∧ (j 1).val = k.val) := by
    intro j
    rw [resultIdx?_eq_some_iff]
    constructor
    · intro e
      have e0 : d.start j idx 0 + (d.window j 0 : ℤ) = (c.val : ℤ) := e 0
      have e1 : d.start j idx 1 + (d.window j 1 : ℤ) = (k.val : ℤ) := e 1
      rw [rows_start0 d h1 h2 h3 h4, rows_window0 d h1 h2 h3 h4] at e0
      rw [rows_start1 d h1 h2 h3 h4, rows_window1 d h1 h2 h3 h4] at e1
      refine ⟨by simpa using e0, ?_⟩
      omega
    · rintro ⟨e0, e1⟩ a
      match a with
      | ⟨0, _⟩ =>
        show d.start j idx 0 + (d.window j 0 : ℤ) = (c.val : ℤ)
        rw [rows_start0 d h1 h2 h3 h4, rows_window0 d h1 h2 h3 h4]
        simpa using e0
      | ⟨1, _⟩ =>
        show d.start j idx 1 + (d.window j 1 : ℤ) = (k.val : ℤ)
        rw [rows_start1 d h1 h2 h3 h4, rows_window1 d h1 h2 h3 h4]
        omega
  have back : ∀ j : (⟨2, ![n, D]⟩ : Shape).Idx, (j 1).val = k.val → ix2 (j 0 : Fin n) k = j := by
    intro j hk
    funext a
    match a with
    | ⟨0, _⟩ => rfl
    | ⟨1, _⟩ => exact Fin.ext hk.symm
  show Ideal.hostScatterAdd d x idx upd (ix2 c k) = _
  unfold Ideal.hostScatterAdd
  congr 1
  refine Finset.sum_nbij' (fun j : (⟨2, ![n, D]⟩ : Shape).Idx => (j 0 : Fin n)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    exact back j ((key j).1 (Finset.mem_filter.1 hj).2).2
  · intro e _; rfl
  · intro j hj
    exact congrArg upd (back j ((key j).1 (Finset.mem_filter.1 hj).2).2).symm

/-! ## The maximum over the rows -/

/-- The column index `c` with row `k` put back is `(k, c)`. -/
private theorem lift_rows {R C : Nat} (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext a; apply Fin.ext
  fin_cases a <;> rfl

/-- The host's maximum over the rows of a table, started at −∞, read at column `c`: the supremum over the rows. -/
theorem reduce_max_rows {R C : Nat} (x : (⟨2, ![R, C]⟩ : Shape).Idx → EReal) (init : (⟨0, ![]⟩ : Shape).Idx → EReal)
    (hinit : ∀ i, init i = ⊥) (h : (⟨2, ![R, C]⟩ : Shape).ReducesTo [0] ⟨1, ![C]⟩) (hu : 0 < (⟨0, ![]⟩ : Shape).numel)
    (c : Fin C) :
    Host.reduce (FloatOps.maximumf (F := Ideal) (φ := .f32)) x init h hu (ix1 c)
      = Finset.univ.sup fun r : Fin R => x (ix2 r c) := by
  -- the rank-one result has an axis, so the reduction is one the single-axis fold law covers
  have hr : (⟨2, ![R, C]⟩ : Shape).Reduces [0] ⟨1, ![C]⟩ := ⟨h.1, Nat.one_pos, h.2⟩
  rw [Host.reduce_eq_fold_single (FloatOps.maximumf (F := Ideal) (φ := .f32)) x init h hr hu, hinit]
  have hf : (x ∘ hr.lift (ix1 c)) = fun r : Fin R => x (ix2 r c) := funext fun k => congrArg x (lift_rows hr c k)
  rw [hf]
  -- a supremum over a finite set is by definition the fold of the binary supremum from the bottom element
  rfl

end Cert.LibScatter

end
-- ==== Proof.LayerMath.lean ====
/-
  One propagation step of the kernel program equals one propagation step of the reference.

  The kernel pads the edge lists by 5888 edges (row position 0, column position 0, weight +0.0), reads the
  neighbour rows through a range guard, weights them, and sums the weighted rows into each edge's row position.
  Row r, column k of either result is the sum over the edges e whose row position is r of
  (weight of e) · (row `position of e` of the table, column k). The padded edges contribute a row times zero, which
  is zero on the extended reals whatever the row holds, and adding zeros does not change a sum; on the first 4000000
  edges the padded lists are the given ones, and for a column position inside [−250000, 250000) the kernel's range
  guard holds, so its guarded read is the reference's clipped read. The two products differ only in the order of
  their factors.
-/
import proofs.«426908_j20014547599450_2_alg».proof.Proof.KSpec
import proofs.«426908_j20014547599450_2_alg».proof.Proof.RSpec
import proofs.«426908_j20014547599450_2_alg».proof.Proof.SpecPad
import proofs.«426908_j20014547599450_2_alg».proof.Proof.SpecTake
import proofs.«426908_j20014547599450_2_alg».proof.Proof.KChain
import proofs.«426908_j20014547599450_2_alg».proof.Proof.LibScatter
import proofs.«426908_j20014547599450_2_alg».proof.Proof.LibGatherRows
import proofs.«426908_j20014547599450_2_alg».proof.Proof.Gen.KernelIdeal
import proofs.«426908_j20014547599450_2_alg».proof.Proof.Gen.ReferenceIdeal
import Idealize.ShloMosaic.PureOps.Ideal
import Idealize.ShloMosaic.Lib.ValueIdx
import Idealize.ShloMosaic.Lib.StableHlo.Predicate
import Mathlib.Algebra.BigOperators.Fin

noncomputable section

open scoped BigOperators

namespace Cert.LayerMath

open Idealize.ShloMosaic Idealize.ShloMosaic.ValueIdx Cert.SpecRead

/-! ## Index spellings -/

theorem ij_eq {n m : Nat} (p : Fin n) (q : Fin m) : StableHlo.Predicate.ij p q = ix2 p q := by
  funext a; match a with | ⟨0, _⟩ => rfl | ⟨1, _⟩ => rfl

theorem ixP_eq {n : Nat} (p : Fin n) : StableHlo.Predicate.ixP p = ix2 p (0 : Fin 1) := by
  funext a; match a with | ⟨0, _⟩ => rfl | ⟨1, _⟩ => rfl

theorem ofFin_eq {n : Nat} (p : Fin n) : (Shape.Idx.ofFin p : (⟨1, ![n]⟩ : Shape).Idx) = ix1 p := by
  funext a; match a with | ⟨0, _⟩ => rfl

/-- A vector as a one-column array, read at (e, 0). -/
theorem col_read {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ix2 e (0 : Fin 1)) = v (ix1 e) := by
  rw [← ixP_eq, StableHlo.Predicate.bcast_col1 h₁ v e, ofFin_eq]

/-- A vector spread along the rows of an n × m array, read at (e, k). -/
theorem rows_read {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α)
    (e : Fin n) (k : Fin m) :
    broadcastInDim ⟨2, ![n, m]⟩ ![0, 1] h₂ (broadcastInDim ⟨2, ![n, 1]⟩ ![0] h₁ v) (ix2 e k) = v (ix1 e) := by
  rw [← ij_eq, StableHlo.Predicate.bcast_rows h₁ h₂ v e k, ofFin_eq]

/-! ## A sum over the padded edges whose padding terms vanish -/

theorem sum_pad (f : Fin 4005888 → EReal) (hz : ∀ e : Fin 4005888, 4000000 ≤ e.val → f e = 0) :
    ∑ e, f e = ∑ e' : Fin 4000000, f (up e') := by
  -- split the padded range into the first 4000000 edges and the 5888 appended ones; the appended terms are zero
  have h := Fin.sum_univ_add (M := EReal) (a := 4000000) (b := 5888) f
  have h2 : ∑ i : Fin 5888, f (Fin.natAdd 4000000 i) = 0 :=
    Finset.sum_eq_zero (fun i _ => hz _ (Nat.le_add_right _ _))
  rw [h2, add_zero] at h
  exact h

/-! ## The two propagation steps read at one entry -/

/-- On one of the first 4000000 edges, with the column position inside [−250000, 250000), the kernel's guarded read of
    the padded list is the clipped read at the given list's normalised position. -/
private theorem take_lo (x : FVec Ideal Cert.KernelIdeal.S250000x64 .f32) (cols : IVec Cert.KernelIdeal.S4000000 32)
    (e : Fin 4000000) (k : Fin 64)
    (h : -250000 ≤ (cols (ix1 e)).toInt ∧ (cols (ix1 e)).toInt < 250000) :
    Cert.KernelIdeal.Spec.takeK (F := Ideal) x (Cert.KernelIdeal.Spec.padI cols) (ix2 (up e) k)
      = x (ix2 (⟨min (norm (cols (ix1 e))).toInt.toNat (250000 - 1), by omega⟩ : Fin 250000) k) := by
  have hr : 0 ≤ (norm (Cert.KernelIdeal.Spec.padI cols (ix1 (up e)))).toInt
      ∧ (norm (Cert.KernelIdeal.Spec.padI cols (ix1 (up e)))).toInt ≤ 249999 := by
    rw [padI_lo]; exact norm_inRange _ h
  refine (takeK_apply x (Cert.KernelIdeal.Spec.padI cols) (up e) k hr).trans ?_
  refine congrArg (fun p : Fin 250000 => x (ix2 p k)) (Fin.ext ?_)
  show min (norm (Cert.KernelIdeal.Spec.padI cols (ix1 (up e)))).toInt.toNat (250000 - 1)
      = min (norm (cols (ix1 e))).toInt.toNat (250000 - 1)
  rw [padI_lo]

/-- Entry (r, k) of the kernel's step: zero plus, over all padded edges whose row word reads r, the guarded read
    times the weight. -/
private theorem layerK_read (rows cols : IVec Cert.KernelIdeal.S4000000 32) (vals : FVec Ideal Cert.KernelIdeal.S4000000 .f32)
    (x : FVec Ideal Cert.KernelIdeal.S250000x64 .f32) (r : Fin 250000) (k : Fin 64) :
    Cert.KernelIdeal.Spec.layerK (F := Ideal) rows cols vals x (ix2 r k)
      = 0 + ∑ e : Fin 4005888,
          if (Cert.KernelIdeal.Spec.padI rows (ix1 e)).toInt = (r.val : ℤ) then
            Cert.KernelIdeal.Spec.takeK (F := Ideal) x (Cert.KernelIdeal.Spec.padI cols) (ix2 e k)
              * Cert.KernelIdeal.Spec.padF (F := Ideal) vals (ix1 e)
          else 0 := by
  unfold Cert.KernelIdeal.Spec.layerK Cert.KernelIdeal.Spec.scatK
  rw [Cert.LibScatter.scatterAdd_rows_read Cert.KernelIdeal.scatter_S250000x64_S4005888x1_S4005888x64_1_0_0_1
      rfl rfl rfl rfl, Finset.sum_filter]
  refine congrArg₂ (· + ·) ?_ ?_
  · rw [StableHlo.Predicate.bcast_scalar _ (by decide)]; exact Ideal.ofBits_zero_f32
  · refine Finset.sum_congr rfl (fun e _ => ?_)
    rw [col_read]
    rfl

/-- Entry (r, k) of the reference's step: zero plus, over all edges whose row word reads r, the weight times the
    clipped read at the normalised position. -/
private theorem layerR_read (rows cols : IVec Cert.KernelIdeal.S4000000 32) (vals : FVec Ideal Cert.KernelIdeal.S4000000 .f32)
    (x : FVec Ideal Cert.KernelIdeal.S250000x64 .f32) (r : Fin 250000) (k : Fin 64) :
    Cert.ReferenceIdeal.Spec.layerR (F := Ideal) rows cols vals x (ix2 r k)
      = 0 + ∑ e : Fin 4000000,
          if (rows (ix1 e)).toInt = (r.val : ℤ) then
            vals (ix1 e)
              * x (ix2 (⟨min (norm (cols (ix1 e))).toInt.toNat (250000 - 1), by omega⟩ : Fin 250000) k)
          else 0 := by
  unfold Cert.ReferenceIdeal.Spec.layerR
  rw [Cert.LibScatter.scatterAdd_rows_read Cert.ReferenceIdeal.scatter_S250000x64_S4000000x1_S4000000x64_1_0_0_1
      rfl rfl rfl rfl, Finset.sum_filter]
  refine congrArg₂ (· + ·) ?_ ?_
  · rw [StableHlo.Predicate.bcast_scalar _ (by decide)]; exact Ideal.ofBits_zero_f32
  · refine Finset.sum_congr rfl (fun e _ => ?_)
    rw [col_read, mulf_apply, rows_read,
      Cert.LibGatherRows.gather_rows_apply Cert.ReferenceIdeal.gather_S250000x64_S4000000x1_S4000000x64_1_0_n_n_0_1_164
        rfl rfl rfl rfl rfl rfl x (Cert.ReferenceIdeal.Spec.normR cols) e k (by omega)]
    refine congrArg (fun p : Fin 250000 => if (rows (ix1 e)).toInt = (r.val : ℤ) then vals (ix1 e) * x (ix2 p k) else 0)
      (Fin.ext ?_)
    show min (Cert.ReferenceIdeal.Spec.normR cols (ix2 e (0 : Fin 1))).toInt.toNat (250000 - 1)
      = min (norm (cols (ix1 e))).toInt.toNat (250000 - 1)
    rw [normR_apply]

/-! ## One propagation step -/

/-- Under the range fact on the column positions, the kernel program's propagation step is the reference's. -/
theorem layer_eq (rows cols : IVec Cert.KernelIdeal.S4000000 32) (vals : FVec Ideal Cert.KernelIdeal.S4000000 .f32)
    (x : FVec Ideal Cert.KernelIdeal.S250000x64 .f32)
    (hc : ∀ e : Fin 4000000, -250000 ≤ (cols (ix1 e)).toInt ∧ (cols (ix1 e)).toInt < 250000) :
    Cert.KernelIdeal.Spec.layerK (F := Ideal) rows cols vals x
      = Cert.ReferenceIdeal.Spec.layerR (F := Ideal) rows cols vals x := by
  funext i
  obtain ⟨r, k, rfl⟩ : ∃ (r : Fin 250000) (k : Fin 64), i = ix2 r k := ⟨i 0, i 1, eq_ix2 i⟩
  rw [layerK_read, layerR_read]
  refine congrArg (fun s : EReal => 0 + s) ?_
  refine (sum_pad _ (fun e he => ?_)).trans (Finset.sum_congr rfl (fun e _ => ?_))
  · -- an appended edge: its weight is zero, and anything times zero is zero on the extended reals
    show (if (Cert.KernelIdeal.Spec.padI rows (ix1 e)).toInt = (r.val : ℤ) then
        Cert.KernelIdeal.Spec.takeK (F := Ideal) x (Cert.KernelIdeal.Spec.padI cols) (ix2 e k)
          * Cert.KernelIdeal.Spec.padF (F := Ideal) vals (ix1 e) else 0) = (0 : EReal)
    rw [padF_hi vals e he, mul_zero, ite_self]
  · -- a given edge: the padded lists read the given ones, the guard holds, and the factors commute
    show (if (Cert.KernelIdeal.Spec.padI rows (ix1 (up e))).toInt = (r.val : ℤ) then
        Cert.KernelIdeal.Spec.takeK (F := Ideal) x (Cert.KernelIdeal.Spec.padI cols) (ix2 (up e) k)
          * Cert.KernelIdeal.Spec.padF (F := Ideal) vals (ix1 (up e)) else 0) = _
    rw [padI_lo rows e, padF_lo vals e, take_lo x cols e k (hc e), mul_comm]

end Cert.LayerMath

end
-- ==== Proof.MeanMath.lean ====
/-
  The kernel program's layer average and batch row reads equal the reference's.

  Both programs add the table and its first three propagation steps in the same order; the kernel then multiplies every
  entry by one quarter where the reference divides by four, which is the same on every extended real. The batch rows are
  read by the same clipped row read of the same slice on both sides.
-/
import proofs.«426908_j20014547599450_2_alg».proof.Proof.LayerMath

noncomputable section

namespace Cert.MeanMath

open Idealize.ShloMosaic Idealize.ShloMosaic.ValueIdx

/-- The word 0x3E800000 denotes one quarter. -/
private theorem ofBits_quarter : Ideal.ofBits .f32 0x3E800000#32 = ((1 / 4 : ℝ) : EReal) := by
  simp [Ideal.ofBits, Ideal.ieee, -EReal.coe_mul]; norm_num

/-- The word 0x40800000 denotes four. -/
private theorem ofBits_four : Ideal.ofBits .f32 0x40800000#32 = ((4 : ℝ) : EReal) := by
  simp [Ideal.ofBits, Ideal.ieee, -EReal.coe_mul]; norm_num

/-- Under the range fact on the column positions, the kernel program's layer average is the reference's. -/
theorem mean_eq (rows cols : IVec Cert.KernelIdeal.S4000000 32) (vals : FVec Ideal Cert.KernelIdeal.S4000000 .f32)
    (x : FVec Ideal Cert.KernelIdeal.S250000x64 .f32)
    (hc : ∀ e : Fin 4000000, -250000 ≤ (cols (ix1 e)).toInt ∧ (cols (ix1 e)).toInt < 250000) :
    Cert.KernelIdeal.Spec.meanK (F := Ideal) rows cols vals x
      = Cert.ReferenceIdeal.Spec.meanR (F := Ideal) rows cols vals x := by
  -- every propagation step of the kernel program is the reference's, whatever table it starts from
  have hl : ∀ y : FVec Ideal Cert.KernelIdeal.S250000x64 .f32,
      Cert.KernelIdeal.Spec.layerK (F := Ideal) rows cols vals y
        = Cert.ReferenceIdeal.Spec.layerR (F := Ideal) rows cols vals y :=
    fun y => Cert.LayerMath.layer_eq rows cols vals y hc
  unfold Cert.KernelIdeal.Spec.meanK Cert.ReferenceIdeal.Spec.meanR
  simp only [hl]
  -- entry by entry: the same sum, times one quarter on one side and divided by four on the other
  funext i
  simp only [Cert.KernelIdeal.Spec.scaleAll, Cert.KernelIdeal.Spec.addAll, Host.divf, addf, broadcastInDim, constant,
    Scalar.ofBits, Ideal.hostDivf_def, Ideal.mulf_def, Ideal.addf_def, Ideal.ofBits_def, ofBits_quarter, ofBits_four,
    Ideal.div_coe (by norm_num : (4 : ℝ) ≠ 0)]

/-- The user rows are read alike. -/
theorem tailU_eq (t : FVec Ideal Cert.KernelIdeal.S250000x64 .f32) (u : IVec Cert.KernelIdeal.S4096 32) :
    Cert.KernelIdeal.Spec.tailUK (F := Ideal) t u = Cert.ReferenceIdeal.Spec.tailU (F := Ideal) t u := by
  unfold Cert.KernelIdeal.Spec.tailUK Cert.ReferenceIdeal.Spec.tailU
  rfl

/-- The item rows are read alike. -/
theorem tailI_eq (t : FVec Ideal Cert.KernelIdeal.S250000x64 .f32) (u : IVec Cert.KernelIdeal.S4096 32) :
    Cert.KernelIdeal.Spec.tailIK (F := Ideal) t u = Cert.ReferenceIdeal.Spec.tailI (F := Ideal) t u := by
  unfold Cert.KernelIdeal.Spec.tailIK Cert.ReferenceIdeal.Spec.tailI
  rfl

end Cert.MeanMath

end
-- ==== Proof.SpecPre.lean ====
/-
  The index-range fact decoded from the precondition: its third conjunct says every column position word lies in
  [−250000, 250000).
-/
import proofs.«426908_j20014547599450_2_alg».proof.Proof.Gen.Pre_finite_inputs
import Idealize.ShloMosaic.PureOps.Ideal
import Idealize.ShloMosaic.Lib.ValueIdx
import Idealize.ShloMosaic.Lib.StableHlo.Predicate
import Idealize.ShloMosaic.Lib.ReduceAll

noncomputable section

namespace Cert.SpecRead

open Idealize.ShloMosaic Idealize.ShloMosaic.ValueIdx

/-- The rank-0 shape has exactly one index: the empty coordinate tuple. -/
private instance subsingleton_scalarIdx : Subsingleton Cert.Pre_finite_inputs.S_.Idx :=
  ⟨fun _ _ => funext fun d => d.elim0⟩

/-- The two's-complement word 2³² − 250000 reads, signed, as −250000. -/
private theorem toInt_lo : (4294717296#32 : BitVec 32).toInt = -250000 := by decide

/-- The word 250000 reads, signed, as 250000. -/
private theorem toInt_hi : (250000#32 : BitVec 32).toInt = 250000 := by decide

/-- The precondition bounds every column position word. -/
theorem cols_inRange_of_pre (a0 : FVec Ideal Cert.Pre_finite_inputs.S250000x64 .f32)
    (a1 a2 : IVec Cert.Pre_finite_inputs.S4000000 32) (a3 : FVec Ideal Cert.Pre_finite_inputs.S4000000 .f32)
    (a4 a5 a6 : IVec Cert.Pre_finite_inputs.S4096 32)
    (h : Cert.Pre_finite_inputs.fn (F := Ideal) a0 a1 a2 a3 a4 a5 a6 = fun _ => 1#1) (e : Fin 4000000) :
    -250000 ≤ (a2 (ix1 e)).toInt ∧ (a2 (ix1 e)).toInt < 250000 := by
  -- the predicate's one word is 1
  have h0 := congrFun h ValueIdx.ix0
  dsimp only [Cert.Pre_finite_inputs.fn] at h0
  -- the outer conjunction: its right operand, the reduction of the range mask over all positions, is 1
  have hall := (IntOp.andi_eq_one.1 h0).2
  -- a conjunction over all positions that is 1 is 1 at position e
  have hel := Host.reduce_andi_all _ _ _ _ _ hall (ix1 e)
  -- at position e the mask is the conjunction of the two signed compares against the broadcast bounds
  obtain ⟨hge, hlt⟩ := IntOp.andi_eq_one.1 hel
  -- a scalar broadcast reads its constant at every position
  have hge' : IntOp.cmpi .sge (a2 (ix1 e)) (4294717296#32 : BitVec 32) = 1#1 := hge
  have hlt' : IntOp.cmpi .slt (a2 (ix1 e)) (250000#32 : BitVec 32) = 1#1 := hlt
  have h1 := IntOp.cmpi_sge.1 hge'
  have h2 := IntOp.cmpi_slt.1 hlt'
  rw [toInt_lo] at h1
  rw [toInt_hi] at h2
  exact ⟨h1, h2⟩

end Cert.SpecRead

end
-- ==== Proof.lean ====
/-
  The certificate's five claims for the layered neighbour-averaging program.

  Both programs compute, from an embedding table, an edge list (row position, column position, weight) and three batches of
  row numbers: three propagation steps (each row of the next table is the weighted sum of the neighbour rows of the
  current one), the average of the table and the three step results, and the batch rows of that average and of the table
  itself. The kernel program pads the edge list with zero-weight edges, guards its neighbour-row read by a range test
  that fills a not-a-number where the column position leaves the table, and multiplies by one quarter where the
  reference divides by four. Under the precondition — finite floats, and every column position inside the table,
  [−250000, 250000) — the guard always holds, the padded edges contribute a product with zero, and one quarter times a
  number is that number divided by four, so the six results agree entry by entry on the extended reals.

  The frames of the two kernel programs are the generated ones; the reference's frame is its generated run with the
  results dropped; the idealization rewrote nothing, so there is nothing to preserve. For the value claim the kernel
  program's run is read at its last boundary (every result buffer as a pure function of the arguments), the reference's
  run is its generated one, and the two pure functions are equal by the one-step law.
-/
import proofs.«426908_j20014547599450_2_alg».proof.Defs
import proofs.«426908_j20014547599450_2_alg».proof.Proof.Gen.Kernel
import proofs.«426908_j20014547599450_2_alg».proof.Proof.Gen.Kernel.Skeleton
import proofs.«426908_j20014547599450_2_alg».proof.Proof.Gen.Kernel.Launch
import proofs.«426908_j20014547599450_2_alg».proof.Proof.Gen.Kernel.Points
import proofs.«426908_j20014547599450_2_alg».proof.Proof.Gen.Kernel.Frame
import proofs.«426908_j20014547599450_2_alg».proof.Proof.Gen.KernelIdeal
import proofs.«426908_j20014547599450_2_alg».proof.Proof.Gen.KernelIdeal.Skeleton
import proofs.«426908_j20014547599450_2_alg».proof.Proof.Gen.KernelIdeal.Launch
import proofs.«426908_j20014547599450_2_alg».proof.Proof.Gen.KernelIdeal.Points
import proofs.«426908_j20014547599450_2_alg».proof.Proof.Gen.KernelIdeal.Frame
import proofs.«426908_j20014547599450_2_alg».proof.Proof.Gen.ReferenceIdeal
import proofs.«426908_j20014547599450_2_alg».proof.Proof.Gen.ReferenceIdeal.Run
import proofs.«426908_j20014547599450_2_alg».proof.Proof.Gen.ReferenceIdeal.Read
import proofs.«426908_j20014547599450_2_alg».proof.Proof.Gen.Pre_finite_inputs
import proofs.«426908_j20014547599450_2_alg».proof.Proof.RunValues
import proofs.«426908_j20014547599450_2_alg».proof.Proof.ChainAll
import proofs.«426908_j20014547599450_2_alg».proof.Proof.RefSide
import proofs.«426908_j20014547599450_2_alg».proof.Proof.MeanMath
import proofs.«426908_j20014547599450_2_alg».proof.Proof.SpecPre
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no device region: its frame is its run with the six results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

/-- Both runs end with the batch rows of the layer average and of the table: the kernel program's read off its last
    boundary, the reference's from its generated run; equal by the one-step law under the range fact the precondition
    gives. -/
theorem algebraic : Cert.algebraic_KernelIdeal_ReferenceIdeal := by
  intro m ρ m' ρ' hpre hagree
  refine ⟨fun c => Cert.KernelIdeal.Gen.W20 m ρ c (Proc.devRef .tc Cert.KernelIdeal.main_v32), fun c => Cert.KernelIdeal.Gen.W20 m ρ c (Proc.devRef .tc Cert.KernelIdeal.main_v39),
    fun c => Cert.KernelIdeal.Gen.W20 m ρ c (Proc.devRef .tc Cert.KernelIdeal.main_v46), fun c => Cert.KernelIdeal.Gen.W20 m ρ c (Proc.devRef .tc Cert.KernelIdeal.main_v53),
    fun c => Cert.KernelIdeal.Gen.W20 m ρ c (Proc.devRef .tc Cert.KernelIdeal.main_v60), fun c => Cert.KernelIdeal.Gen.W20 m ρ c (Proc.devRef .tc Cert.KernelIdeal.main_v67), ?_, ?_⟩
  · -- the kernel program: every unscoped buffer ends at the last boundary's contents
    refine (θ_run Cert.KernelIdeal.defs _ _).mono (fun r h c => ?_) (Cert.KernelIdeal.GenRun.run_final m ρ)
    exact ⟨h c _ (Cert.KernelIdeal.Gen.mem_uc Cert.KernelIdeal.main_v32 (by decide)), h c _ (Cert.KernelIdeal.Gen.mem_uc Cert.KernelIdeal.main_v39 (by decide)),
      h c _ (Cert.KernelIdeal.Gen.mem_uc Cert.KernelIdeal.main_v46 (by decide)), h c _ (Cert.KernelIdeal.Gen.mem_uc Cert.KernelIdeal.main_v53 (by decide)),
      h c _ (Cert.KernelIdeal.Gen.mem_uc Cert.KernelIdeal.main_v60 (by decide)), h c _ (Cert.KernelIdeal.Gen.mem_uc Cert.KernelIdeal.main_v67 (by decide)),
      (h c _ (Cert.KernelIdeal.Gen.mem_uc Cert.KernelIdeal.main_arg0 (by decide))).trans (Cert.KernelIdeal.Gen.W20_main_arg0 m ρ c),
      (h c _ (Cert.KernelIdeal.Gen.mem_uc Cert.KernelIdeal.main_arg1 (by decide))).trans (Cert.KernelIdeal.Gen.W20_main_arg1 m ρ c),
      (h c _ (Cert.KernelIdeal.Gen.mem_uc Cert.KernelIdeal.main_arg2 (by decide))).trans (Cert.KernelIdeal.Gen.W20_main_arg2 m ρ c),
      (h c _ (Cert.KernelIdeal.Gen.mem_uc Cert.KernelIdeal.main_arg3 (by decide))).trans (Cert.KernelIdeal.Gen.W20_main_arg3 m ρ c),
      (h c _ (Cert.KernelIdeal.Gen.mem_uc Cert.KernelIdeal.main_arg4 (by decide))).trans (Cert.KernelIdeal.Gen.W20_main_arg4 m ρ c),
      (h c _ (Cert.KernelIdeal.Gen.mem_uc Cert.KernelIdeal.main_arg5 (by decide))).trans (Cert.KernelIdeal.Gen.W20_main_arg5 m ρ c),
      (h c _ (Cert.KernelIdeal.Gen.mem_uc Cert.KernelIdeal.main_arg6 (by decide))).trans (Cert.KernelIdeal.Gen.W20_main_arg6 m ρ c)⟩
  · -- the reference: its generated run, each result rewritten to the kernel program's
    refine (θ_run Cert.ReferenceIdeal.defs _ _).mono (fun r h c => ?_) (Cert.ReferenceIdeal.Value.run (F := Ideal) m' ρ')
    obtain ⟨h0, h1, h2, h3, h4, h5, hargs⟩ := h c
    obtain ⟨e0, e1, e2, e3, e4, e5, e6⟩ := hagree c
    obtain ⟨k0, k1, k2, k3, k4, k5⟩ := Cert.KernelIdeal.Chain.results m ρ c
    have hc : ∀ e : Fin 4000000, -250000 ≤ ((m ((c.tc : Thread Cert.KernelIdeal.nD Cert.KernelIdeal.τ).loc Cert.KernelIdeal.main_arg2)) (ix1 e)).toInt
        ∧ ((m ((c.tc : Thread Cert.KernelIdeal.nD Cert.KernelIdeal.τ).loc Cert.KernelIdeal.main_arg2)) (ix1 e)).toInt < 250000 :=
      fun e => Cert.SpecRead.cols_inRange_of_pre _ _ _ _ _ _ _ (hpre c) e
    have hmean := Cert.MeanMath.mean_eq (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) hc
    refine ⟨h0.trans ?_, h1.trans ?_, h2.trans ?_, h3.trans ?_, h4.trans ?_, h5.trans ?_, hargs⟩
    · -- the user rows of the layer average
      refine (Cert.ReferenceIdeal.RefSide.out0 m' c).trans ?_
      rw [e0, e1, e2, e3, e4]
      exact (k0.trans ((Cert.MeanMath.tailU_eq _ _).trans (congrArg (fun t => Cert.ReferenceIdeal.Spec.tailU (F := Ideal) t _) hmean))).symm
    · -- the positive item rows of the layer average
      refine (Cert.ReferenceIdeal.RefSide.out1 m' c).trans ?_
      rw [e0, e1, e2, e3, e5]
      exact (k1.trans ((Cert.MeanMath.tailI_eq _ _).trans (congrArg (fun t => Cert.ReferenceIdeal.Spec.tailI (F := Ideal) t _) hmean))).symm
    · -- the negative item rows of the layer average
      refine (Cert.ReferenceIdeal.RefSide.out2 m' c).trans ?_
      rw [e0, e1, e2, e3, e6]
      exact (k2.trans ((Cert.MeanMath.tailI_eq _ _).trans (congrArg (fun t => Cert.ReferenceIdeal.Spec.tailI (F := Ideal) t _) hmean))).symm
    · -- the user rows of the table
      show Cert.ReferenceIdeal.Spec.tailU (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) = _
      rw [e0, e4]
      exact (k3.trans (Cert.MeanMath.tailU_eq _ _)).symm
    · -- the positive item rows of the table
      show Cert.ReferenceIdeal.Spec.tailI (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg5)) = _
      rw [e0, e5]
      exact (k4.trans (Cert.MeanMath.tailI_eq _ _)).symm
    · -- the negative item rows of the table
      show Cert.ReferenceIdeal.Spec.tailI (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6)) = _
      rw [e0, e6]
      exact (k5.trans (Cert.MeanMath.tailI_eq _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
